-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S64x24 : Shape := ⟨2, ![64, 24]⟩
abbrev S64x32 : Shape := ⟨2, ![64, 32]⟩
abbrev S32x64 : Shape := ⟨2, ![32, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S64x24 : S_.BroadcastsInDim S64x24 (![] : Fin 0 → Fin S64x24.rank)
  reducesTo_S64x24_S_d0_1 : S64x24.ReducesTo [0, 1] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg4 : FVec F S32x64 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  main_v23

def fn {F : FTy → Type} [FloatOps F] (main_arg0 : FVec F S32x2048x64 .f32) (main_arg1 : FVec F S64x24 .f32) (main_arg2 : FVec F S64x24 .f32) (main_arg3 : FVec F S64x32 .f32) (main_arg4 : FVec F S32x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S64x24 .f32 := Host.absf main_arg1
  let main_cst_0 : FVec F S_ .f32 := constant S_ .f32 0x7F800000#32
  let main_v5 : FVec F S64x24 .f32 := broadcastInDim S64x24 ![] bcast_S_S64x24 main_cst_0
  let main_v6 : IVec S64x24 1 := cmpf .olt main_v4 main_v5
  let main_c_1 : IVec S_ 1 := constantI S_ 1 1#1
  let main_v7 : IVec S_ 1 := (fun x v => Host.reduce IntOp.andi x v reducesTo_S64x24_S_d0_1 h_S_) main_v6 main_c_1
  let main_v8 : IVec S_ 1 := andi main_v3 main_v7
  let main_v9 : FVec F S64x24 .f32 := Host.absf main_arg2
  let main_cst_2 : FVec F S_ .f32 := constant S_ .f32 0x7F800000#32
  let main_v10 : FVec F S64x24 .f32 := broadcastInDim S64x24 ![] bcast_S_S64x24 main_cst_2
  let main_v11 : IVec S64x24 1 := cmpf .olt main_v9 main_v10
  let main_c_3 : IVec S_ 1 := constantI S_ 1 1#1
  let main_v12 : IVec S_ 1 := (fun x v => Host.reduce IntOp.andi x v reducesTo_S64x24_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S32x2048x64 : Shape := ⟨3, ![32, 2048, 64]⟩
abbrev S64x24 : Shape := ⟨2, ![64, 24]⟩
abbrev S64x32 : Shape := ⟨2, ![64, 32]⟩
abbrev S32x64 : Shape := ⟨2, ![32, 64]⟩
abbrev S1x2048x64 : Shape := ⟨3, ![1, 2048, 64]⟩
abbrev S2048x24 : Shape := ⟨2, ![2048, 24]⟩
abbrev S2048x64 : Shape := ⟨2, ![2048, 64]⟩
abbrev S1x1024x64 : Shape := ⟨3, ![1, 1024, 64]⟩
abbrev S1024x64 : Shape := ⟨2, ![1024, 64]⟩
abbrev S1024x24 : Shape := ⟨2, ![1024, 24]⟩
abbrev S1024x32 : Shape := ⟨2, ![1024, 32]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S64x24, .f32⟩
  | .hbm, ⟨2, _⟩ => ⟨S64x24, .f32⟩
  | .hbm, ⟨3, _⟩ => ⟨S64x32, .f32⟩
  | .hbm, ⟨4, _⟩ => ⟨S32x64, .f32⟩
  | .hbm, ⟨5, _⟩ => ⟨S32x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S64x24, .f32⟩
  | .local _ .vmem, ⟨3, _⟩ => ⟨S64x24, .f32⟩
  | .local _ .vmem, ⟨4, _⟩ => ⟨S64x32, .f32⟩
  | .local _ .vmem, ⟨5, _⟩ => ⟨S32x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x24, .bf16⟩
  | .local _ .vmem, ⟨9, _⟩ => ⟨S2048x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def k0_cond2 (i : grid0.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_21 : BitVec 32 := 0#32
  let v43 : BitVec 1 := Scalar.cmpi .ne v42 c0_i32_21
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x24_S64x24_0_0 : ∀ a, (![0, 0] : Fin 2 → Nat) a + S64x24.size a ≤ S64x24.size a
  h_S64x24 : 0 < S64x24.numel
  inb_S2048x24_S2048x24_0_0 : ∀ a, (![0, 0] : Fin 2 → Nat) a + S2048x24.size a ≤ S2048x24.size a
  h_S2048x24 : 0 < S2048x24.numel
  shapeCasts_S2048x24_S2048x24 : S2048x24.ShapeCasts S2048x24
  packedbf16_S2048x24_S2048x24_0_0 : (Rect.unit (s := S2048x24) ![0, 0] S2048x24.size inb_S2048x24_S2048x24_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S1x1024x64 : 0 < S1x1024x64.numel
  shapeCasts_S1x1024x64_S1024x64 : S1x1024x64.ShapeCasts S1024x64
  inb_S64x32_S64x32_0_0 : ∀ a, (![0, 0] : Fin 2 → Nat) a + S64x32.size a ≤ S64x32.size a
  h_S64x32 : 0 < S64x32.numel
  inb_S32x64_S32x64_0_0 : ∀ a, (![0, 0] : Fin 2 → Nat) a + S32x64.size a ≤ S32x64.size a
  h_S32x64 : 0 < S32x64.numel
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x32 : S1024x1.Broadcasts S1024x32
  shapeCasts_S2048x64_S1x2048x64 : S2048x64.ShapeCasts S1x2048x64
  dot_S2048x64_S64x24_S2048x24_1_0_0_1_n_n_wf : DotDims.WF S2048x64 S64x24 S2048x24 [1] [0] [0] [1] [] []
  dot_S1024x64_S64x24_S1024x24_1_0_0_1_n_n_wf : DotDims.WF S1024x64 S64x24 S1024x24 [1] [0] [0] [1] [] []
  dot_S1024x64_S64x32_S1024x32_1_0_0_1_n_n_wf : DotDims.WF S1024x64 S64x32 S1024x32 [1] [0] [0] [1] [] []
  dot_S1024x24_S2048x24_S1024x2048_1_1_0_0_n_n_wf : DotDims.WF S1024x24 S2048x24 S1024x2048 [1] [1] [0] [0] [] []
  dot_S1024x32_S32x64_S1024x64_1_0_0_1_n_n_wf : DotDims.WF S1024x32 S32x64 S1024x64 [1] [0] [0] [1] [] []
  dot_S1024x2048_S1024x64_S2048x64_0_0_1_1_n_n_wf : DotDims.WF S1024x2048 S1024x64 S2048x64 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x24.size a ≤ S64x24.size a
  hwx0_1 : ∀ i : grid0.Coords, EltTy.bits .f32 = 32 ∨ (Rect.block (s := S64x24) S64x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x24.size a ≤ S64x24.size a
  hwx0_2 : ∀ i : grid0.Coords, EltTy.bits .f32 = 32 ∨ (Rect.block (s := S64x24) S64x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S32x2048x64.size a
  hwx0_5 : ∀ i : grid0.Coords, EltTy.bits .f32 = 32 ∨ (Rect.block (s := S32x2048x64) S1x2048x64.size (cc0_transform_5 i) (hinb0_5 i)).WholeWords (EltTy.packing .f32)

variable [Facts₀]

def dot_S2048x64_S64x24_S2048x24_1_0_0_1_n_n : DotDims S2048x64 S64x24 S2048x24 where
  lhsContracting := [1]
  rhsContracting := [0]
  lhsNonContracting := [0]
  rhsNonContracting := [1]
  lhsBatch := []
  rhsBatch := []
  wf := dot_S2048x64_S64x24_S2048x24_1_0_0_1_n_n_wf
def dot_S1024x64_S64x24_S1024x24_1_0_0_1_n_n : DotDims S1024x64 S64x24 S1024x24 where
  lhsContracting := [1]
  rhsContracting := [0]
  lhsNonContracting := [0]
  rhsNonContracting := [1]
  lhsBatch := []
  rhsBatch := []
  wf := dot_S1024x64_S64x24_S1024x24_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x24_S2048x24_S1024x2048_1_1_0_0_n_n : DotDims S1024x24 S2048x24 S1024x2048 where
  lhsContracting := [1]
  rhsContracting := [1]
  lhsNonContracting := [0]
  rhsNonContracting := [0]
  lhsBatch := []
  rhsBatch := []
  wf := dot_S1024x24_S2048x24_S1024x2048_1_1_0_0_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x2048_S1024x64_S2048x64_0_0_1_1_n_n : DotDims S1024x2048 S1024x64 S2048x64 where
  lhsContracting := [0]
  rhsContracting := [0]
  lhsNonContracting := [1]
  rhsNonContracting := [1]
  lhsBatch := []
  rhsBatch := []
  wf := dot_S1024x2048_S1024x64_S2048x64_0_0_1_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x2048x64 : Shape := ⟨3, ![32, 2048, 64]⟩
abbrev S64x24 : Shape := ⟨2, ![64, 24]⟩
abbrev S64x32 : Shape := ⟨2, ![64, 32]⟩
abbrev S32x64 : Shape := ⟨2, ![32, 64]⟩
abbrev S32x2048x24 : Shape := ⟨3, ![32, 2048, 24]⟩
abbrev S32x2048x32 : Shape := ⟨3, ![32, 2048, 32]⟩
abbrev S32x2048x2048 : Shape := ⟨3, ![32, 2048, 2048]⟩
abbrev S_ : Shape := ⟨0, ![]⟩
abbrev S32x2048 : Shape := ⟨2, ![32, 2048]⟩
abbrev S32x1x2048 : Shape := ⟨3, ![32, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S64x24, .f32⟩
  | .hbm, ⟨2, _⟩ => ⟨S64x24, .f32⟩
  | .hbm, ⟨3, _⟩ => ⟨S64x32, .f32⟩
  | .hbm, ⟨4, _⟩ => ⟨S32x64, .f32⟩
  | .hbm, ⟨5, _⟩ => ⟨S32x2048x24, .f32⟩
  | .hbm, ⟨6, _⟩ => ⟨S32x2048x24, .f32⟩
  | .hbm, ⟨7, _⟩ => ⟨S32x2048x32, .f32⟩
  | .hbm, ⟨8, _⟩ => ⟨S32x2048x2048, .f32⟩
  | .hbm, ⟨9, _⟩ => ⟨S_, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x1x2048, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048, .f32⟩
  | .hbm, ⟨20, _⟩ => ⟨S32x1x2048, .f32⟩
  | .hbm, ⟨21, _⟩ => ⟨S32x2048x2048, .f32⟩
  | .hbm, ⟨22, _⟩ => ⟨S32x2048x2048, .f32⟩
  | .hbm, ⟨23, _⟩ => ⟨S32x2048x32, .f32⟩
  | .hbm, ⟨24, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S32x2048x2048_S32x2048_d1 : S32x2048x2048.ReducesTo [1] S32x2048
  h_S_ : 0 < S_.numel
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S32x1x2048_S32x2048x2048_0_1_2 : S32x1x2048.BroadcastsInDim S32x2048x2048 (![0, 1, 2] : Fin 3 → Fin S32x2048x2048.rank)
  dot_S32x2048x64_S64x24_S32x2048x24_2_0_01_1_n_n_wf : DotDims.WF S32x2048x64 S64x24 S32x2048x24 [2] [0] [0, 1] [1] [] []
  dot_S32x2048x64_S64x32_S32x2048x32_2_0_01_1_n_n_wf : DotDims.WF S32x2048x64 S64x32 S32x2048x32 [2] [0] [0, 1] [1] [] []
  dot_S32x2048x24_S32x2048x24_S32x2048x2048_2_2_1_1_0_0_wf : DotDims.WF S32x2048x24 S32x2048x24 S32x2048x2048 [2] [2] [1] [1] [0] [0]
  dot_S32x2048x2048_S32x2048x32_S32x2048x32_2_1_1_2_0_0_wf : DotDims.WF S32x2048x2048 S32x2048x32 S32x2048x32 [2] [1] [1] [2] [0] [0]
  dot_S32x2048x32_S32x64_S32x2048x64_2_0_01_1_n_n_wf : DotDims.WF S32x2048x32 S32x64 S32x2048x64 [2] [0] [0, 1] [1] [] []

variable [Facts₀]

def dot_S32x2048x64_S64x24_S32x2048x24_2_0_01_1_n_n : DotDims S32x2048x64 S64x24 S32x2048x24 where
  lhsContracting := [2]
  rhsContracting := [0]
  lhsNonContracting := [0, 1]
  rhsNonContracting := [1]
  lhsBatch := []
  rhsBatch := []
  wf := dot_S32x2048x64_S64x24_S32x2048x24_2_0_01_1_n_n_wf
def dot_S32x2048x64_S64x32_S32x2048x32_2_0_01_1_n_n : DotDims S32x2048x64 S64x32 S32x2048x32 where
  lhsContracting := [2]
  rhsContracting := [0]
  lhsNonContracting := [0, 1]
  rhsNonContracting := [1]
  lhsBatch := []
  rhsBatch := []
  wf := dot_S32x2048x64_S64x32_S32x2048x32_2_0_01_1_n_n_wf
def dot_S32x2048x24_S32x2048x24_S32x2048x2048_2_2_1_1_0_0 : DotDims S32x2048x24 S32x2048x24 S32x2048x2048 where
  lhsContracting := [2]
  rhsContracting := [2]
  lhsNonContracting := [1]
  rhsNonContracting := [1]
  lhsBatch := [0]
  rhsBatch := [0]
  wf := dot_S32x2048x24_S32x2048x24_S32x2048x2048_2_2_1_1_0_0_wf
def dot_S32x2048x2048_S32x2048x32_S32x2048x32_2_1_1_2_0_0 : DotDims S32x2048x2048 S32x2048x32 S32x2048x32 where
  lhsContracting := [2]
  rhsContracting := [1]
  lhsNonContracting := [1]
  rhsNonContracting := [2]
  lhsBatch := [0]
  rhsBatch := [0]
  wf := dot_S32x2048x2048_S32x2048x32_S32x2048x32_2_1_1_2_0_0_wf
def dot_S32x2048x32_S32x64_S32x2048x64_2_0_01_1_n_n : DotDims S32x2048x32 S32x64 S32x2048x64 where
  lhsContracting := [2]
  rhsContracting := [0]
  lhsNonContracting := [0, 1]
  rhsNonContracting := [1]
  lhsBatch := []
  rhsBatch := []
  wf := dot_S32x2048x32_S32x64_S32x2048x64_2_0_01_1_n_n_wf

class Facts : Prop extends Facts₀ where

variable [Facts]
-- ==== Proof.Pieces.lean ====
/-
  What each of the kernel's two control cases leaves in the two scratch buffers it carries across grid points and
  in the output block, as the body's arithmetic applied to the blocks the case reads.
-/
import proofs.«430476_j29454885716713_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 rows of the batch element's block that the half at grid point `i` walks: rows `1024·kt` onwards. -/
def xtile (i : grid0.Coords) (x0 : Vec F S1x2048x64 .f32) : Vec F S1x1024x64 .f32 :=
  View.ld x0 (Rect.unit (s := S1x2048x64) (k0_off1 i) S1x1024x64.size (k0_off1_inb i))

/-- At the first half the query scratch ends holding the query projection of the whole block. -/
theorem sA0 (c : Dev nD) (i : grid0.Coords) (arg2 : Memref sig .tc .vmem S1x2048x64 .f32) (harg2 : arg2.IsWhole) (arg3 : Memref sig .tc .vmem S64x24 .f32) (harg3 : arg3.IsWhole) (arg4 : Memref sig .tc .vmem S64x24 .f32) (harg4 : arg4.IsWhole) (arg5 : Memref sig .tc .vmem S64x32 .f32) (harg5 : arg5.IsWhole) (arg6 : Memref sig .tc .vmem S32x64 .f32) (harg6 : arg6.IsWhole) (arg7 : Memref sig .tc .vmem S1x2048x64 .f32) (harg7 : arg7.IsWhole) (arg8 : Memref sig .tc .vmem S2048x24 .bf16) (harg8 : arg8.IsWhole) (arg9 : Memref sig .tc .vmem S2048x64 .f32) (harg9 : arg9.IsWhole) (hc0 : cond0_0 i) (hc1 : ¬cond0_1 i) (x0 : Vec F S1x2048x64 .f32) (x1 : Vec F S64x24 .f32) (x2 : Vec F S64x24 .f32) (x3 : Vec F S64x32 .f32) (x4 : Vec F S32x64 .f32) :
    sout0_A_0 c i arg2 harg2 arg3 harg3 arg4 harg4 arg5 harg5 arg6 harg6 arg7 harg7 arg8 harg8 arg9 harg9 hc0 hc1 x0 x1 x2 x3 x4 = k0_pay3 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg2.read_unread, harg3.read_unread, View.ld_unit_zero (S := S1x2048x64) hz3,
    View.ld_unit_zero (S := S64x24) hz2]

/-- At the first half the accumulator ends holding zero plus the half's contribution, the queries being the ones just stored. -/
theorem sA1 (c : Dev nD) (i : grid0.Coords) (arg2 : Memref sig .tc .vmem S1x2048x64 .f32) (harg2 : arg2.IsWhole) (arg3 : Memref sig .tc .vmem S64x24 .f32) (harg3 : arg3.IsWhole) (arg4 : Memref sig .tc .vmem S64x24 .f32) (harg4 : arg4.IsWhole) (arg5 : Memref sig .tc .vmem S64x32 .f32) (harg5 : arg5.IsWhole) (arg6 : Memref sig .tc .vmem S32x64 .f32) (harg6 : arg6.IsWhole) (arg7 : Memref sig .tc .vmem S1x2048x64 .f32) (harg7 : arg7.IsWhole) (arg8 : Memref sig .tc .vmem S2048x24 .bf16) (harg8 : arg8.IsWhole) (arg9 : Memref sig .tc .vmem S2048x64 .f32) (harg9 : arg9.IsWhole) (hc0 : cond0_0 i) (hc1 : ¬cond0_1 i) (x0 : Vec F S1x2048x64 .f32) (x1 : Vec F S64x24 .f32) (x2 : Vec F S64x24 .f32) (x3 : Vec F S64x32 .f32) (x4 : Vec F S32x64 .f32) :
    sout0_A_1 c i arg2 harg2 arg3 harg3 arg4 harg4 arg5 harg5 arg6 harg6 arg7 harg7 arg8 harg8 arg9 harg9 hc0 hc1 x0 x1 x2 x3 x4 = k0_pay1 (k0_pay5 (xtile i x0) x2 x3 x4 (k0_pay3 x0 x1)) k0_pay4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x64) hz2]
  simp only [View.readAt_eq_ld, harg2.read_unread, harg3.read_unread, harg4.read_unread, harg5.read_unread, harg6.read_unread,
    View.ld_unit_zero (S := S1x2048x64) hz3, View.ld_unit_zero (S := S64x24) hz2, View.ld_unit_zero (S := S64x32) hz2,
    View.ld_unit_zero (S := S32x64) hz2, View.readCov_unit_zero (S := S2048x24) _ hz2, View.readCov_unit_zero (S := S2048x64) _ hz2]
  rfl

/-- At the second half the accumulator ends holding what it held plus the half's contribution, the queries read from the scratch. -/
theorem sB1 (c : Dev nD) (i : grid0.Coords) (arg2 : Memref sig .tc .vmem S1x2048x64 .f32) (harg2 : arg2.IsWhole) (arg3 : Memref sig .tc .vmem S64x24 .f32) (harg3 : arg3.IsWhole) (arg4 : Memref sig .tc .vmem S64x24 .f32) (harg4 : arg4.IsWhole) (arg5 : Memref sig .tc .vmem S64x32 .f32) (harg5 : arg5.IsWhole) (arg6 : Memref sig .tc .vmem S32x64 .f32) (harg6 : arg6.IsWhole) (arg7 : Memref sig .tc .vmem S1x2048x64 .f32) (harg7 : arg7.IsWhole) (arg8 : Memref sig .tc .vmem S2048x24 .bf16) (harg8 : arg8.IsWhole) (arg9 : Memref sig .tc .vmem S2048x64 .f32) (harg9 : arg9.IsWhole) (hc0 : ¬cond0_0 i) (hc1 : cond0_1 i) (x0 : Vec F S1x2048x64 .f32) (x1 : Vec F S64x24 .f32) (x2 : Vec F S64x24 .f32) (x3 : Vec F S64x32 .f32) (x4 : Vec F S32x64 .f32) (xs0 : Vec F S2048x24 .bf16) (xs1 : Vec F S2048x64 .f32) :
    sout0_B_1 c i arg2 harg2 arg3 harg3 arg4 harg4 arg5 harg5 arg6 harg6 arg7 harg7 arg8 harg8 arg9 harg9 hc0 hc1 x0 x1 x2 x3 x4 xs0 xs1 = k0_pay1 (k0_pay5 (xtile i x0) x2 x3 x4 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S2048x64) hz2]
  simp only [View.readAt_eq_ld, harg2.read_unread, harg4.read_unread, harg5.read_unread, harg6.read_unread, harg8.read_unread,
    harg9.read_unread, View.ld_unit_zero (S := S64x24) hz2, View.ld_unit_zero (S := S64x32) hz2,
    View.ld_unit_zero (S := S32x64) hz2, View.ld_unit_zero (S := S2048x24) hz2, View.ld_unit_zero (S := S2048x64) hz2]
  rfl

/-- At the second half the output block is stored: the accumulator just updated, with a leading unit axis. -/
theorem oB5 (c : Dev nD) (i : grid0.Coords) (arg2 : Memref sig .tc .vmem S1x2048x64 .f32) (harg2 : arg2.IsWhole) (arg3 : Memref sig .tc .vmem S64x24 .f32) (harg3 : arg3.IsWhole) (arg4 : Memref sig .tc .vmem S64x24 .f32) (harg4 : arg4.IsWhole) (arg5 : Memref sig .tc .vmem S64x32 .f32) (harg5 : arg5.IsWhole) (arg6 : Memref sig .tc .vmem S32x64 .f32) (harg6 : arg6.IsWhole) (arg7 : Memref sig .tc .vmem S1x2048x64 .f32) (harg7 : arg7.IsWhole) (arg8 : Memref sig .tc .vmem S2048x24 .bf16) (harg8 : arg8.IsWhole) (arg9 : Memref sig .tc .vmem S2048x64 .f32) (harg9 : arg9.IsWhole) (hc0 : ¬cond0_0 i) (hc1 : cond0_1 i) (x0 : Vec F S1x2048x64 .f32) (x1 : Vec F S64x24 .f32) (x2 : Vec F S64x24 .f32) (x3 : Vec F S64x32 .f32) (x4 : Vec F S32x64 .f32) (xs0 : Vec F S2048x24 .bf16) (xs1 : Vec F S2048x64 .f32) :
    out0_B_5 c i arg2 harg2 arg3 harg3 arg4 harg4 arg5 harg5 arg6 harg6 arg7 harg7 arg8 harg8 arg9 harg9 hc0 hc1 x0 x1 x2 x3 x4 xs0 xs1 = k0_pay2 (k0_pay1 (k0_pay5 (xtile i x0) x2 x3 x4 xs0) xs1) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S1x2048x64) hz3]
  simp only [View.readAt_eq_ld, harg2.read_unread, harg4.read_unread, harg5.read_unread, harg6.read_unread, harg8.read_unread,
    harg9.read_unread, View.ld_unit_zero (S := S64x24) hz2, View.ld_unit_zero (S := S64x32) hz2,
    View.ld_unit_zero (S := S32x64) hz2, View.ld_unit_zero (S := S2048x24) hz2, View.ld_unit_zero (S := S2048x64) hz2,
    View.readCov_unit_zero (S := S2048x64) _ hz2]
  rfl

end Cert.KernelIdeal.Pieces

end
-- ==== Proof.AttnSpec.lean ====
/-
  Attention whose softmax runs over the QUERY axis, for one batch element, as plain functions of the
  argument arrays over the extended reals.

  For a batch element with rows `xa : 2048 × 64`: queries `Q = xa·Wq`, keys `K = xa·Wk`, values `V = xa·Wv`;
  the score of key `k` against query `q` is `A k q = ∑ d, K k d * Q q d`; each KEY's scores are normalised over
  the queries: `P k q = exp (A k q - max_q A k q)`, `L k = ∑ q, P k q`.  The reference forms
  `∑ d, (∑ k, (P k q / L k) * V k d) * Wh d f` over all 2048 keys; the kernel walks the keys in two halves of
  1024 and, per half, forms `∑ k, P k q * (∑ d, (V k d * (1 / L k)) * Wh d f)`, adding the halves onto zero.
  A key's statistics involve that key's row only, so a half's statistics are the whole array's at those keys.
-/
import Idealize.ShloMosaic.PureOps.Ideal
import Idealize.ShloMosaic.Lib.ValueIdx

noncomputable section

namespace Cert.AttnSpec

open Idealize.ShloMosaic Idealize.ShloMosaic.ValueIdx

/-- A rank-2 array read as a function of its two coordinates. -/
def c2 {a b : Nat} (v : (⟨2, ![a, b]⟩ : Shape).Idx → EReal) : Fin a → Fin b → EReal := fun i j => v (ix2 i j)

/-- Slab `i` of a rank-3 array along its leading axis, as a function of the two remaining coordinates. -/
def slab {a b c : Nat} (v : (⟨3, ![a, b, c]⟩ : Shape).Idx → EReal) (i : Fin a) : Fin b → Fin c → EReal :=
  fun j k => v (ix3 i j k)

/-- The matrix product, entry by entry. -/
def mm {n k p : Nat} (a : Fin n → Fin k → EReal) (b : Fin k → Fin p → EReal) (i : Fin n) (j : Fin p) : EReal :=
  ∑ t : Fin k, a i t * b t j

variable {n : Nat}

/-- The score of key row `k` (of the rows `xt`) against query `q`. -/
def tA (xt : Fin n → Fin 64 → EReal) (wk : Fin 64 → Fin 24 → EReal) (qs : Fin 2048 → Fin 24 → EReal)
    (k : Fin n) (q : Fin 2048) : EReal :=
  ∑ d : Fin 24, mm xt wk k d * qs q d

/-- A key's largest score over the queries (from the bottom element). -/
def tM (xt : Fin n → Fin 64 → EReal) (wk : Fin 64 → Fin 24 → EReal) (qs : Fin 2048 → Fin 24 → EReal)
    (k : Fin n) : EReal :=
  (Finset.univ : Finset (Fin 2048)).fold max ⊥ (fun q => tA xt wk qs k q)

/-- The unnormalised weight of query `q` under key `k`. -/
def tP (xt : Fin n → Fin 64 → EReal) (wk : Fin 64 → Fin 24 → EReal) (qs : Fin 2048 → Fin 24 → EReal)
    (k : Fin n) (q : Fin 2048) : EReal :=
  Ideal.exp (tA xt wk qs k q - tM xt wk qs k)

/-- A key's normaliser: the sum of its weights over the queries. -/
def tL (xt : Fin n → Fin 64 → EReal) (wk : Fin 64 → Fin 24 → EReal) (qs : Fin 2048 → Fin 24 → EReal)
    (k : Fin n) : EReal :=
  ∑ q : Fin 2048, tP xt wk qs k q

/-- A key's value row scaled by the reciprocal of its normaliser, then carried through `Wh`. -/
def tVH (xt : Fin n → Fin 64 → EReal) (wk : Fin 64 → Fin 24 → EReal) (wv : Fin 64 → Fin 32 → EReal)
    (wh : Fin 32 → Fin 64 → EReal) (qs : Fin 2048 → Fin 24 → EReal) (k : Fin n) (f : Fin 64) : EReal :=
  ∑ d : Fin 32, (mm xt wv k d * Ideal.div 1 (tL xt wk qs k)) * wh d f

/-- What one walk over the key rows `xt` contributes to output entry `(q, f)`. -/
def tileOut (xt : Fin n → Fin 64 → EReal) (wk : Fin 64 → Fin 24 → EReal) (wv : Fin 64 → Fin 32 → EReal)
    (wh : Fin 32 → Fin 64 → EReal) (qs : Fin 2048 → Fin 24 → EReal) (q : Fin 2048) (f : Fin 64) : EReal :=
  ∑ k : Fin n, tP xt wk qs k q * tVH xt wk wv wh qs k f

/-- The first and the second 1024 rows. -/
def lo (xa : Fin 2048 → Fin 64 → EReal) : Fin 1024 → Fin 64 → EReal := fun k => xa ⟨k.val, by omega⟩
def hi (xa : Fin 2048 → Fin 64 → EReal) : Fin 1024 → Fin 64 → EReal := fun k => xa ⟨1024 + k.val, by omega⟩

/-- The kernel's output entry for one batch element: the two halves' contributions added onto zero, in order. -/
def kernOut (xa : Fin 2048 → Fin 64 → EReal) (wq wk : Fin 64 → Fin 24 → EReal) (wv : Fin 64 → Fin 32 → EReal)
    (wh : Fin 32 → Fin 64 → EReal) (q : Fin 2048) (f : Fin 64) : EReal :=
  (0 + tileOut (lo xa) wk wv wh (mm xa wq) q f) + tileOut (hi xa) wk wv wh (mm xa wq) q f

/-- The reference's output entry for one batch element. -/
def refOut (xa : Fin 2048 → Fin 64 → EReal) (wq wk : Fin 64 → Fin 24 → EReal) (wv : Fin 64 → Fin 32 → EReal)
    (wh : Fin 32 → Fin 64 → EReal) (q : Fin 2048) (f : Fin 64) : EReal :=
  ∑ d : Fin 32, (∑ k : Fin 2048, Ideal.div (tP xa wk (mm xa wq) k q) (tL xa wk (mm xa wq) k) * mm xa wv k d) * wh d f

end Cert.AttnSpec

end
-- ==== Proof.KernelPay.lean ====
/-
  The kernel body's arithmetic, read entry by entry at the extended reals.
-/
import proofs.«430476_j29454885716713_3_alg».proof.Proof.Gen.KernelIdeal.Skeleton
import proofs.«430476_j29454885716713_3_alg».proof.Proof.AttnSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.AttnSpec

/-! ## The six products, each read at an entry -/

theorem lhs_dot_S2048x64_S64x24_S2048x24_1_0_0_1_n_n_0 (i : S2048x24.Idx) (q : dot_S2048x64_S64x24_S2048x24_1_0_0_1_n_n.contr.Idx) :
    (dot_S2048x64_S64x24_S2048x24_1_0_0_1_n_n.lhsIdx i q 0).val = (i 0).val := by
  unfold DotDims.lhsIdx
  rw [dif_neg (show ¬(0 : Fin S2048x64.rank) ∈ dot_S2048x64_S64x24_S2048x24_1_0_0_1_n_n.lhsBatch by decide), dif_pos (show (0 : Fin S2048x64.rank) ∈ dot_S2048x64_S64x24_S2048x24_1_0_0_1_n_n.lhsNonContracting by decide)]
  rfl
theorem lhs_dot_S2048x64_S64x24_S2048x24_1_0_0_1_n_n_1 (i : S2048x24.Idx) (q : dot_S2048x64_S64x24_S2048x24_1_0_0_1_n_n.contr.Idx) :
    (dot_S2048x64_S64x24_S2048x24_1_0_0_1_n_n.lhsIdx i q 1).val = (q ⟨0, by decide⟩).val :=
  dot_S2048x64_S64x24_S2048x24_1_0_0_1_n_n.lhsIdx_val_of_single rfl i q
theorem rhs_dot_S2048x64_S64x24_S2048x24_1_0_0_1_n_n_0 (i : S2048x24.Idx) (q : dot_S2048x64_S64x24_S2048x24_1_0_0_1_n_n.contr.Idx) :
    (dot_S2048x64_S64x24_S2048x24_1_0_0_1_n_n.rhsIdx i q 0).val = (q ⟨0, by decide⟩).val :=
  dot_S2048x64_S64x24_S2048x24_1_0_0_1_n_n.rhsIdx_val_of_single rfl i q
theorem rhs_dot_S2048x64_S64x24_S2048x24_1_0_0_1_n_n_1 (i : S2048x24.Idx) (q : dot_S2048x64_S64x24_S2048x24_1_0_0_1_n_n.contr.Idx) :
    (dot_S2048x64_S64x24_S2048x24_1_0_0_1_n_n.rhsIdx i q 1).val = (i 1).val := by
  unfold DotDims.rhsIdx
  rw [dif_neg (show ¬(1 : Fin S64x24.rank) ∈ dot_S2048x64_S64x24_S2048x24_1_0_0_1_n_n.rhsBatch by decide), dif_pos (show (1 : Fin S64x24.rank) ∈ dot_S2048x64_S64x24_S2048x24_1_0_0_1_n_n.rhsNonContracting by decide)]
  rfl
/-- The product into the zero accumulator, read at an entry: the sum over the contracted coordinate. -/
theorem dot_S2048x64_S64x24_S2048x24_1_0_0_1_n_n_apply {φ₁ φ₂ : FTy} (x : FVec Ideal S2048x64 φ₁) (y : FVec Ideal S64x24 φ₂) (r : Fin 2048) (c : Fin 24) :
    matmul dot_S2048x64_S64x24_S2048x24_1_0_0_1_n_n none x y (constant S2048x24 .f32 0x00000000#32) (ix2 r c)
      = ∑ t : Fin 64, x (ix2 r t) * y (ix2 t c) := by
  refine (Ideal.matmul_constant_zero_apply dot_S2048x64_S64x24_S2048x24_1_0_0_1_n_n none x y (ix2 r c)).trans ?_
  rw [← Equiv.sum_comp (ValueIdx.contrEquiv1 dot_S2048x64_S64x24_S2048x24_1_0_0_1_n_n 64 rfl rfl).symm]
  refine Finset.sum_congr rfl fun t _ => ?_
  have hk := ValueIdx.contrEquiv1_symm_val dot_S2048x64_S64x24_S2048x24_1_0_0_1_n_n 64 rfl rfl t
  have el : dot_S2048x64_S64x24_S2048x24_1_0_0_1_n_n.lhsIdx (ix2 r c) ((ValueIdx.contrEquiv1 dot_S2048x64_S64x24_S2048x24_1_0_0_1_n_n 64 rfl rfl).symm t) = ix2 r t := funext fun a => Fin.ext (by
    match a with
    | ⟨0, _⟩ => exact lhs_dot_S2048x64_S64x24_S2048x24_1_0_0_1_n_n_0 _ _
    | ⟨1, _⟩ => exact (lhs_dot_S2048x64_S64x24_S2048x24_1_0_0_1_n_n_1 _ _).trans hk)
  have er : dot_S2048x64_S64x24_S2048x24_1_0_0_1_n_n.rhsIdx (ix2 r c) ((ValueIdx.contrEquiv1 dot_S2048x64_S64x24_S2048x24_1_0_0_1_n_n 64 rfl rfl).symm t) = ix2 t c := funext fun a => Fin.ext (by
    match a with
    | ⟨0, _⟩ => exact (rhs_dot_S2048x64_S64x24_S2048x24_1_0_0_1_n_n_0 _ _).trans hk
    | ⟨1, _⟩ => exact rhs_dot_S2048x64_S64x24_S2048x24_1_0_0_1_n_n_1 _ _)
  rw [el, er]

theorem lhs_dot_S1024x64_S64x24_S1024x24_1_0_0_1_n_n_0 (i : S1024x24.Idx) (q : dot_S1024x64_S64x24_S1024x24_1_0_0_1_n_n.contr.Idx) :
    (dot_S1024x64_S64x24_S1024x24_1_0_0_1_n_n.lhsIdx i q 0).val = (i 0).val := by
  unfold DotDims.lhsIdx
  rw [dif_neg (show ¬(0 : Fin S1024x64.rank) ∈ dot_S1024x64_S64x24_S1024x24_1_0_0_1_n_n.lhsBatch by decide), dif_pos (show (0 : Fin S1024x64.rank) ∈ dot_S1024x64_S64x24_S1024x24_1_0_0_1_n_n.lhsNonContracting by decide)]
  rfl
theorem lhs_dot_S1024x64_S64x24_S1024x24_1_0_0_1_n_n_1 (i : S1024x24.Idx) (q : dot_S1024x64_S64x24_S1024x24_1_0_0_1_n_n.contr.Idx) :
    (dot_S1024x64_S64x24_S1024x24_1_0_0_1_n_n.lhsIdx i q 1).val = (q ⟨0, by decide⟩).val :=
  dot_S1024x64_S64x24_S1024x24_1_0_0_1_n_n.lhsIdx_val_of_single rfl i q
theorem rhs_dot_S1024x64_S64x24_S1024x24_1_0_0_1_n_n_0 (i : S1024x24.Idx) (q : dot_S1024x64_S64x24_S1024x24_1_0_0_1_n_n.contr.Idx) :
    (dot_S1024x64_S64x24_S1024x24_1_0_0_1_n_n.rhsIdx i q 0).val = (q ⟨0, by decide⟩).val :=
  dot_S1024x64_S64x24_S1024x24_1_0_0_1_n_n.rhsIdx_val_of_single rfl i q
theorem rhs_dot_S1024x64_S64x24_S1024x24_1_0_0_1_n_n_1 (i : S1024x24.Idx) (q : dot_S1024x64_S64x24_S1024x24_1_0_0_1_n_n.contr.Idx) :
    (dot_S1024x64_S64x24_S1024x24_1_0_0_1_n_n.rhsIdx i q 1).val = (i 1).val := by
  unfold DotDims.rhsIdx
  rw [dif_neg (show ¬(1 : Fin S64x24.rank) ∈ dot_S1024x64_S64x24_S1024x24_1_0_0_1_n_n.rhsBatch by decide), dif_pos (show (1 : Fin S64x24.rank) ∈ dot_S1024x64_S64x24_S1024x24_1_0_0_1_n_n.rhsNonContracting by decide)]
  rfl
/-- The product into the zero accumulator, read at an entry: the sum over the contracted coordinate. -/
theorem dot_S1024x64_S64x24_S1024x24_1_0_0_1_n_n_apply {φ₁ φ₂ : FTy} (x : FVec Ideal S1024x64 φ₁) (y : FVec Ideal S64x24 φ₂) (r : Fin 1024) (c : Fin 24) :
    matmul dot_S1024x64_S64x24_S1024x24_1_0_0_1_n_n none x y (constant S1024x24 .f32 0x00000000#32) (ix2 r c)
      = ∑ t : Fin 64, x (ix2 r t) * y (ix2 t c) := by
  refine (Ideal.matmul_constant_zero_apply dot_S1024x64_S64x24_S1024x24_1_0_0_1_n_n none x y (ix2 r c)).trans ?_
  rw [← Equiv.sum_comp (ValueIdx.contrEquiv1 dot_S1024x64_S64x24_S1024x24_1_0_0_1_n_n 64 rfl rfl).symm]
  refine Finset.sum_congr rfl fun t _ => ?_
  have hk := ValueIdx.contrEquiv1_symm_val dot_S1024x64_S64x24_S1024x24_1_0_0_1_n_n 64 rfl rfl t
  have el : dot_S1024x64_S64x24_S1024x24_1_0_0_1_n_n.lhsIdx (ix2 r c) ((ValueIdx.contrEquiv1 dot_S1024x64_S64x24_S1024x24_1_0_0_1_n_n 64 rfl rfl).symm t) = ix2 r t := funext fun a => Fin.ext (by
    match a with
    | ⟨0, _⟩ => exact lhs_dot_S1024x64_S64x24_S1024x24_1_0_0_1_n_n_0 _ _
    | ⟨1, _⟩ => exact (lhs_dot_S1024x64_S64x24_S1024x24_1_0_0_1_n_n_1 _ _).trans hk)
  have er : dot_S1024x64_S64x24_S1024x24_1_0_0_1_n_n.rhsIdx (ix2 r c) ((ValueIdx.contrEquiv1 dot_S1024x64_S64x24_S1024x24_1_0_0_1_n_n 64 rfl rfl).symm t) = ix2 t c := funext fun a => Fin.ext (by
    match a with
    | ⟨0, _⟩ => exact (rhs_dot_S1024x64_S64x24_S1024x24_1_0_0_1_n_n_0 _ _).trans hk
    | ⟨1, _⟩ => exact rhs_dot_S1024x64_S64x24_S1024x24_1_0_0_1_n_n_1 _ _)
  rw [el, er]

theorem lhs_dot_S1024x64_S64x32_S1024x32_1_0_0_1_n_n_0 (i : S1024x32.Idx) (q : dot_S1024x64_S64x32_S1024x32_1_0_0_1_n_n.contr.Idx) :
    (dot_S1024x64_S64x32_S1024x32_1_0_0_1_n_n.lhsIdx i q 0).val = (i 0).val := by
  unfold DotDims.lhsIdx
  rw [dif_neg (show ¬(0 : Fin S1024x64.rank) ∈ dot_S1024x64_S64x32_S1024x32_1_0_0_1_n_n.lhsBatch by decide), dif_pos (show (0 : Fin S1024x64.rank) ∈ dot_S1024x64_S64x32_S1024x32_1_0_0_1_n_n.lhsNonContracting by decide)]
  rfl
theorem lhs_dot_S1024x64_S64x32_S1024x32_1_0_0_1_n_n_1 (i : S1024x32.Idx) (q : dot_S1024x64_S64x32_S1024x32_1_0_0_1_n_n.contr.Idx) :
    (dot_S1024x64_S64x32_S1024x32_1_0_0_1_n_n.lhsIdx i q 1).val = (q ⟨0, by decide⟩).val :=
  dot_S1024x64_S64x32_S1024x32_1_0_0_1_n_n.lhsIdx_val_of_single rfl i q
theorem rhs_dot_S1024x64_S64x32_S1024x32_1_0_0_1_n_n_0 (i : S1024x32.Idx) (q : dot_S1024x64_S64x32_S1024x32_1_0_0_1_n_n.contr.Idx) :
    (dot_S1024x64_S64x32_S1024x32_1_0_0_1_n_n.rhsIdx i q 0).val = (q ⟨0, by decide⟩).val :=
  dot_S1024x64_S64x32_S1024x32_1_0_0_1_n_n.rhsIdx_val_of_single rfl i q
theorem rhs_dot_S1024x64_S64x32_S1024x32_1_0_0_1_n_n_1 (i : S1024x32.Idx) (q : dot_S1024x64_S64x32_S1024x32_1_0_0_1_n_n.contr.Idx) :
    (dot_S1024x64_S64x32_S1024x32_1_0_0_1_n_n.rhsIdx i q 1).val = (i 1).val := by
  unfold DotDims.rhsIdx
  rw [dif_neg (show ¬(1 : Fin S64x32.rank) ∈ dot_S1024x64_S64x32_S1024x32_1_0_0_1_n_n.rhsBatch by decide), dif_pos (show (1 : Fin S64x32.rank) ∈ dot_S1024x64_S64x32_S1024x32_1_0_0_1_n_n.rhsNonContracting by decide)]
  rfl
/-- The product into the zero accumulator, read at an entry: the sum over the contracted coordinate. -/
theorem dot_S1024x64_S64x32_S1024x32_1_0_0_1_n_n_apply {φ₁ φ₂ : FTy} (x : FVec Ideal S1024x64 φ₁) (y : FVec Ideal S64x32 φ₂) (r : Fin 1024) (c : Fin 32) :
    matmul dot_S1024x64_S64x32_S1024x32_1_0_0_1_n_n none x y (constant S1024x32 .f32 0x00000000#32) (ix2 r c)
      = ∑ t : Fin 64, x (ix2 r t) * y (ix2 t c) := by
  refine (Ideal.matmul_constant_zero_apply dot_S1024x64_S64x32_S1024x32_1_0_0_1_n_n none x y (ix2 r c)).trans ?_
  rw [← Equiv.sum_comp (ValueIdx.contrEquiv1 dot_S1024x64_S64x32_S1024x32_1_0_0_1_n_n 64 rfl rfl).symm]
  refine Finset.sum_congr rfl fun t _ => ?_
  have hk := ValueIdx.contrEquiv1_symm_val dot_S1024x64_S64x32_S1024x32_1_0_0_1_n_n 64 rfl rfl t
  have el : dot_S1024x64_S64x32_S1024x32_1_0_0_1_n_n.lhsIdx (ix2 r c) ((ValueIdx.contrEquiv1 dot_S1024x64_S64x32_S1024x32_1_0_0_1_n_n 64 rfl rfl).symm t) = ix2 r t := funext fun a => Fin.ext (by
    match a with
    | ⟨0, _⟩ => exact lhs_dot_S1024x64_S64x32_S1024x32_1_0_0_1_n_n_0 _ _
    | ⟨1, _⟩ => exact (lhs_dot_S1024x64_S64x32_S1024x32_1_0_0_1_n_n_1 _ _).trans hk)
  have er : dot_S1024x64_S64x32_S1024x32_1_0_0_1_n_n.rhsIdx (ix2 r c) ((ValueIdx.contrEquiv1 dot_S1024x64_S64x32_S1024x32_1_0_0_1_n_n 64 rfl rfl).symm t) = ix2 t c := funext fun a => Fin.ext (by
    match a with
    | ⟨0, _⟩ => exact (rhs_dot_S1024x64_S64x32_S1024x32_1_0_0_1_n_n_0 _ _).trans hk
    | ⟨1, _⟩ => exact rhs_dot_S1024x64_S64x32_S1024x32_1_0_0_1_n_n_1 _ _)
  rw [el, er]

theorem lhs_dot_S1024x24_S2048x24_S1024x2048_1_1_0_0_n_n_0 (i : S1024x2048.Idx) (q : dot_S1024x24_S2048x24_S1024x2048_1_1_0_0_n_n.contr.Idx) :
    (dot_S1024x24_S2048x24_S1024x2048_1_1_0_0_n_n.lhsIdx i q 0).val = (i 0).val := by
  unfold DotDims.lhsIdx
  rw [dif_neg (show ¬(0 : Fin S1024x24.rank) ∈ dot_S1024x24_S2048x24_S1024x2048_1_1_0_0_n_n.lhsBatch by decide), dif_pos (show (0 : Fin S1024x24.rank) ∈ dot_S1024x24_S2048x24_S1024x2048_1_1_0_0_n_n.lhsNonContracting by decide)]
  rfl
theorem lhs_dot_S1024x24_S2048x24_S1024x2048_1_1_0_0_n_n_1 (i : S1024x2048.Idx) (q : dot_S1024x24_S2048x24_S1024x2048_1_1_0_0_n_n.contr.Idx) :
    (dot_S1024x24_S2048x24_S1024x2048_1_1_0_0_n_n.lhsIdx i q 1).val = (q ⟨0, by decide⟩).val :=
  dot_S1024x24_S2048x24_S1024x2048_1_1_0_0_n_n.lhsIdx_val_of_single rfl i q
theorem rhs_dot_S1024x24_S2048x24_S1024x2048_1_1_0_0_n_n_0 (i : S1024x2048.Idx) (q : dot_S1024x24_S2048x24_S1024x2048_1_1_0_0_n_n.contr.Idx) :
    (dot_S1024x24_S2048x24_S1024x2048_1_1_0_0_n_n.rhsIdx i q 0).val = (i 1).val := by
  unfold DotDims.rhsIdx
  rw [dif_neg (show ¬(0 : Fin S2048x24.rank) ∈ dot_S1024x24_S2048x24_S1024x2048_1_1_0_0_n_n.rhsBatch by decide), dif_pos (show (0 : Fin S2048x24.rank) ∈ dot_S1024x24_S2048x24_S1024x2048_1_1_0_0_n_n.rhsNonContracting by decide)]
  rfl
theorem rhs_dot_S1024x24_S2048x24_S1024x2048_1_1_0_0_n_n_1 (i : S1024x2048.Idx) (q : dot_S1024x24_S2048x24_S1024x2048_1_1_0_0_n_n.contr.Idx) :
    (dot_S1024x24_S2048x24_S1024x2048_1_1_0_0_n_n.rhsIdx i q 1).val = (q ⟨0, by decide⟩).val :=
  dot_S1024x24_S2048x24_S1024x2048_1_1_0_0_n_n.rhsIdx_val_of_single rfl i q
/-- The product into the zero accumulator, read at an entry: the sum over the contracted coordinate. -/
theorem dot_S1024x24_S2048x24_S1024x2048_1_1_0_0_n_n_apply {φ₁ φ₂ : FTy} (x : FVec Ideal S1024x24 φ₁) (y : FVec Ideal S2048x24 φ₂) (r : Fin 1024) (c : Fin 2048) :
    matmul dot_S1024x24_S2048x24_S1024x2048_1_1_0_0_n_n none x y (constant S1024x2048 .f32 0x00000000#32) (ix2 r c)
      = ∑ t : Fin 24, x (ix2 r t) * y (ix2 c t) := by
  refine (Ideal.matmul_constant_zero_apply dot_S1024x24_S2048x24_S1024x2048_1_1_0_0_n_n none x y (ix2 r c)).trans ?_
  rw [← Equiv.sum_comp (ValueIdx.contrEquiv1 dot_S1024x24_S2048x24_S1024x2048_1_1_0_0_n_n 24 rfl rfl).symm]
  refine Finset.sum_congr rfl fun t _ => ?_
  have hk := ValueIdx.contrEquiv1_symm_val dot_S1024x24_S2048x24_S1024x2048_1_1_0_0_n_n 24 rfl rfl t
  have el : dot_S1024x24_S2048x24_S1024x2048_1_1_0_0_n_n.lhsIdx (ix2 r c) ((ValueIdx.contrEquiv1 dot_S1024x24_S2048x24_S1024x2048_1_1_0_0_n_n 24 rfl rfl).symm t) = ix2 r t := funext fun a => Fin.ext (by
    match a with
    | ⟨0, _⟩ => exact lhs_dot_S1024x24_S2048x24_S1024x2048_1_1_0_0_n_n_0 _ _
    | ⟨1, _⟩ => exact (lhs_dot_S1024x24_S2048x24_S1024x2048_1_1_0_0_n_n_1 _ _).trans hk)
  have er : dot_S1024x24_S2048x24_S1024x2048_1_1_0_0_n_n.rhsIdx (ix2 r c) ((ValueIdx.contrEquiv1 dot_S1024x24_S2048x24_S1024x2048_1_1_0_0_n_n 24 rfl rfl).symm t) = ix2 c t := funext fun a => Fin.ext (by
    match a with
    | ⟨0, _⟩ => exact rhs_dot_S1024x24_S2048x24_S1024x2048_1_1_0_0_n_n_0 _ _
    | ⟨1, _⟩ => exact (rhs_dot_S1024x24_S2048x24_S1024x2048_1_1_0_0_n_n_1 _ _).trans hk)
  rw [el, er]

theorem lhs_dot_S1024x32_S32x64_S1024x64_1_0_0_1_n_n_0 (i : S1024x64.Idx) (q : dot_S1024x32_S32x64_S1024x64_1_0_0_1_n_n.contr.Idx) :
    (dot_S1024x32_S32x64_S1024x64_1_0_0_1_n_n.lhsIdx i q 0).val = (i 0).val := by
  unfold DotDims.lhsIdx
  rw [dif_neg (show ¬(0 : Fin S1024x32.rank) ∈ dot_S1024x32_S32x64_S1024x64_1_0_0_1_n_n.lhsBatch by decide), dif_pos (show (0 : Fin S1024x32.rank) ∈ dot_S1024x32_S32x64_S1024x64_1_0_0_1_n_n.lhsNonContracting by decide)]
  rfl
theorem lhs_dot_S1024x32_S32x64_S1024x64_1_0_0_1_n_n_1 (i : S1024x64.Idx) (q : dot_S1024x32_S32x64_S1024x64_1_0_0_1_n_n.contr.Idx) :
    (dot_S1024x32_S32x64_S1024x64_1_0_0_1_n_n.lhsIdx i q 1).val = (q ⟨0, by decide⟩).val :=
  dot_S1024x32_S32x64_S1024x64_1_0_0_1_n_n.lhsIdx_val_of_single rfl i q
theorem rhs_dot_S1024x32_S32x64_S1024x64_1_0_0_1_n_n_0 (i : S1024x64.Idx) (q : dot_S1024x32_S32x64_S1024x64_1_0_0_1_n_n.contr.Idx) :
    (dot_S1024x32_S32x64_S1024x64_1_0_0_1_n_n.rhsIdx i q 0).val = (q ⟨0, by decide⟩).val :=
  dot_S1024x32_S32x64_S1024x64_1_0_0_1_n_n.rhsIdx_val_of_single rfl i q
theorem rhs_dot_S1024x32_S32x64_S1024x64_1_0_0_1_n_n_1 (i : S1024x64.Idx) (q : dot_S1024x32_S32x64_S1024x64_1_0_0_1_n_n.contr.Idx) :
    (dot_S1024x32_S32x64_S1024x64_1_0_0_1_n_n.rhsIdx i q 1).val = (i 1).val := by
  unfold DotDims.rhsIdx
  rw [dif_neg (show ¬(1 : Fin S32x64.rank) ∈ dot_S1024x32_S32x64_S1024x64_1_0_0_1_n_n.rhsBatch by decide), dif_pos (show (1 : Fin S32x64.rank) ∈ dot_S1024x32_S32x64_S1024x64_1_0_0_1_n_n.rhsNonContracting by decide)]
  rfl
/-- The product into the zero accumulator, read at an entry: the sum over the contracted coordinate. -/
theorem dot_S1024x32_S32x64_S1024x64_1_0_0_1_n_n_apply {φ₁ φ₂ : FTy} (x : FVec Ideal S1024x32 φ₁) (y : FVec Ideal S32x64 φ₂) (r : Fin 1024) (c : Fin 64) :
    matmul dot_S1024x32_S32x64_S1024x64_1_0_0_1_n_n none x y (constant S1024x64 .f32 0x00000000#32) (ix2 r c)
      = ∑ t : Fin 32, x (ix2 r t) * y (ix2 t c) := by
  refine (Ideal.matmul_constant_zero_apply dot_S1024x32_S32x64_S1024x64_1_0_0_1_n_n none x y (ix2 r c)).trans ?_
  rw [← Equiv.sum_comp (ValueIdx.contrEquiv1 dot_S1024x32_S32x64_S1024x64_1_0_0_1_n_n 32 rfl rfl).symm]
  refine Finset.sum_congr rfl fun t _ => ?_
  have hk := ValueIdx.contrEquiv1_symm_val dot_S1024x32_S32x64_S1024x64_1_0_0_1_n_n 32 rfl rfl t
  have el : dot_S1024x32_S32x64_S1024x64_1_0_0_1_n_n.lhsIdx (ix2 r c) ((ValueIdx.contrEquiv1 dot_S1024x32_S32x64_S1024x64_1_0_0_1_n_n 32 rfl rfl).symm t) = ix2 r t := funext fun a => Fin.ext (by
    match a with
    | ⟨0, _⟩ => exact lhs_dot_S1024x32_S32x64_S1024x64_1_0_0_1_n_n_0 _ _
    | ⟨1, _⟩ => exact (lhs_dot_S1024x32_S32x64_S1024x64_1_0_0_1_n_n_1 _ _).trans hk)
  have er : dot_S1024x32_S32x64_S1024x64_1_0_0_1_n_n.rhsIdx (ix2 r c) ((ValueIdx.contrEquiv1 dot_S1024x32_S32x64_S1024x64_1_0_0_1_n_n 32 rfl rfl).symm t) = ix2 t c := funext fun a => Fin.ext (by
    match a with
    | ⟨0, _⟩ => exact (rhs_dot_S1024x32_S32x64_S1024x64_1_0_0_1_n_n_0 _ _).trans hk
    | ⟨1, _⟩ => exact rhs_dot_S1024x32_S32x64_S1024x64_1_0_0_1_n_n_1 _ _)
  rw [el, er]

theorem lhs_dot_S1024x2048_S1024x64_S2048x64_0_0_1_1_n_n_0 (i : S2048x64.Idx) (q : dot_S1024x2048_S1024x64_S2048x64_0_0_1_1_n_n.contr.Idx) :
    (dot_S1024x2048_S1024x64_S2048x64_0_0_1_1_n_n.lhsIdx i q 0).val = (q ⟨0, by decide⟩).val :=
  dot_S1024x2048_S1024x64_S2048x64_0_0_1_1_n_n.lhsIdx_val_of_single rfl i q
theorem lhs_dot_S1024x2048_S1024x64_S2048x64_0_0_1_1_n_n_1 (i : S2048x64.Idx) (q : dot_S1024x2048_S1024x64_S2048x64_0_0_1_1_n_n.contr.Idx) :
    (dot_S1024x2048_S1024x64_S2048x64_0_0_1_1_n_n.lhsIdx i q 1).val = (i 0).val := by
  unfold DotDims.lhsIdx
  rw [dif_neg (show ¬(1 : Fin S1024x2048.rank) ∈ dot_S1024x2048_S1024x64_S2048x64_0_0_1_1_n_n.lhsBatch by decide), dif_pos (show (1 : Fin S1024x2048.rank) ∈ dot_S1024x2048_S1024x64_S2048x64_0_0_1_1_n_n.lhsNonContracting by decide)]
  rfl
theorem rhs_dot_S1024x2048_S1024x64_S2048x64_0_0_1_1_n_n_0 (i : S2048x64.Idx) (q : dot_S1024x2048_S1024x64_S2048x64_0_0_1_1_n_n.contr.Idx) :
    (dot_S1024x2048_S1024x64_S2048x64_0_0_1_1_n_n.rhsIdx i q 0).val = (q ⟨0, by decide⟩).val :=
  dot_S1024x2048_S1024x64_S2048x64_0_0_1_1_n_n.rhsIdx_val_of_single rfl i q
theorem rhs_dot_S1024x2048_S1024x64_S2048x64_0_0_1_1_n_n_1 (i : S2048x64.Idx) (q : dot_S1024x2048_S1024x64_S2048x64_0_0_1_1_n_n.contr.Idx) :
    (dot_S1024x2048_S1024x64_S2048x64_0_0_1_1_n_n.rhsIdx i q 1).val = (i 1).val := by
  unfold DotDims.rhsIdx
  rw [dif_neg (show ¬(1 : Fin S1024x64.rank) ∈ dot_S1024x2048_S1024x64_S2048x64_0_0_1_1_n_n.rhsBatch by decide), dif_pos (show (1 : Fin S1024x64.rank) ∈ dot_S1024x2048_S1024x64_S2048x64_0_0_1_1_n_n.rhsNonContracting by decide)]
  rfl
/-- The product into the zero accumulator, read at an entry: the sum over the contracted coordinate. -/
theorem dot_S1024x2048_S1024x64_S2048x64_0_0_1_1_n_n_apply {φ₁ φ₂ : FTy} (x : FVec Ideal S1024x2048 φ₁) (y : FVec Ideal S1024x64 φ₂) (r : Fin 2048) (c : Fin 64) :
    matmul dot_S1024x2048_S1024x64_S2048x64_0_0_1_1_n_n none x y (constant S2048x64 .f32 0x00000000#32) (ix2 r c)
      = ∑ t : Fin 1024, x (ix2 t r) * y (ix2 t c) := by
  refine (Ideal.matmul_constant_zero_apply dot_S1024x2048_S1024x64_S2048x64_0_0_1_1_n_n none x y (ix2 r c)).trans ?_
  rw [← Equiv.sum_comp (ValueIdx.contrEquiv1 dot_S1024x2048_S1024x64_S2048x64_0_0_1_1_n_n 1024 rfl rfl).symm]
  refine Finset.sum_congr rfl fun t _ => ?_
  have hk := ValueIdx.contrEquiv1_symm_val dot_S1024x2048_S1024x64_S2048x64_0_0_1_1_n_n 1024 rfl rfl t
  have el : dot_S1024x2048_S1024x64_S2048x64_0_0_1_1_n_n.lhsIdx (ix2 r c) ((ValueIdx.contrEquiv1 dot_S1024x2048_S1024x64_S2048x64_0_0_1_1_n_n 1024 rfl rfl).symm t) = ix2 t r := funext fun a => Fin.ext (by
    match a with
    | ⟨0, _⟩ => exact (lhs_dot_S1024x2048_S1024x64_S2048x64_0_0_1_1_n_n_0 _ _).trans hk
    | ⟨1, _⟩ => exact lhs_dot_S1024x2048_S1024x64_S2048x64_0_0_1_1_n_n_1 _ _)
  have er : dot_S1024x2048_S1024x64_S2048x64_0_0_1_1_n_n.rhsIdx (ix2 r c) ((ValueIdx.contrEquiv1 dot_S1024x2048_S1024x64_S2048x64_0_0_1_1_n_n 1024 rfl rfl).symm t) = ix2 t c := funext fun a => Fin.ext (by
    match a with
    | ⟨0, _⟩ => exact (rhs_dot_S1024x2048_S1024x64_S2048x64_0_0_1_1_n_n_0 _ _).trans hk
    | ⟨1, _⟩ => exact rhs_dot_S1024x2048_S1024x64_S2048x64_0_0_1_1_n_n_1 _ _)
  rw [el, er]

/-! ## Layout and reduction pieces read at an entry -/

/-- A vector cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pattern of `1.0` is the extended real `1`. -/
theorem ofBits_one_f32 : Ideal.ofBits .f32 0x3F800000#32 = 1 := by
  simp [Ideal.ofBits, Ideal.ieee, -EReal.coe_mul]; norm_num

/-- The pattern of `-∞` is the bottom element. -/
theorem ofBits_neginf_f32 : Ideal.ofBits .f32 0xFF800000#32 = ⊥ := by
  simp [Ideal.ofBits, Ideal.ieee]

/-- The sum along the rows, read at row `k`. -/
theorem rowSum_apply (a : FVec Ideal S1024x2048 .f32) (hr : S1024x2048.Reduces [1] S1024) (hφ : FKind.Formats .f32)
    (hacc : (0x00000000#32 : BitVec (FTy.bits .f32)) = FKind.add.neutral .f32 hφ) (k : Fin 1024) :
    multiReduction .add [1] S1024 a 0x00000000#32 hr hφ hacc (ix1 k) = ∑ q : Fin 2048, a (ix2 k q) := by
  refine (Ideal.multiReduction_add_single a _ hr hφ hacc (ix1 k)).trans ?_
  refine Finset.sum_congr rfl fun q _ => congrArg a ?_
  funext d
  refine Fin.ext ?_
  match d with
  | ⟨0, _⟩ => rfl
  | ⟨1, _⟩ => rfl

/-- The maximum along the rows from the bottom element, read at row `k`. -/
theorem rowMax_apply (a : FVec Ideal S1024x2048 .f32) (hr : S1024x2048.Reduces [1] S1024) (hφ : FKind.Formats .f32)
    (hacc : (0xFF800000#32 : BitVec (FTy.bits .f32)) = FKind.maximumf.neutral .f32 hφ) (k : Fin 1024) :
    multiReduction .maximumf [1] S1024 a 0xFF800000#32 hr hφ hacc (ix1 k)
      = (Finset.univ : Finset (Fin 2048)).fold max ⊥ (fun q => a (ix2 k q)) := by
  refine (Ideal.multiReduction_maximumf_single a _ hr hφ hacc (ix1 k)).trans ?_
  have e : (a ∘ hr.lift (ix1 k)) = fun q : Fin 2048 => a (ix2 k q) := by
    funext q
    refine congrArg a ?_
    funext d
    refine Fin.ext ?_
    match d with
    | ⟨0, _⟩ => rfl
    | ⟨1, _⟩ => rfl
  have e0 : (FloatOps.ofBits (F := Ideal) .f32 0xFF800000#32) = ⊥ := ofBits_neginf_f32
  rw [e, e0]
  rfl

/-! ## The stages of one walk over the key rows -/

/-- The key projection of the half's rows. -/
theorem K_at (v6 : FVec Ideal S1x1024x64 .f32) (v9 : FVec Ideal S64x24 .f32) (h1 : S1x1024x64.ShapeCasts S1024x64)
    (h2 : FTy.bits .bf16 < FTy.bits .f32) (k : Fin 1024) (d : Fin 24) :
    matmul (F := Ideal) dot_S1024x64_S64x24_S1024x24_1_0_0_1_n_n none (truncf .bf16 (shapeCast S1024x64 v6 h1) h2) (truncf .bf16 v9 h2)
      (constant S1024x24 .f32 0x00000000#32) (ix2 k d) = mm (slab v6 0) (c2 v9) k d := by
  refine (dot_S1024x64_S64x24_S1024x24_1_0_0_1_n_n_apply _ _ k d).trans ?_
  refine Finset.sum_congr rfl fun t _ => ?_
  exact congrArg (· * v9 (ix2 t d)) (shapeCast_1ab_ab_apply v6 _ k t)

/-- The value projection of the half's rows. -/
theorem V_at (v6 : FVec Ideal S1x1024x64 .f32) (v11 : FVec Ideal S64x32 .f32) (h1 : S1x1024x64.ShapeCasts S1024x64)
    (h2 : FTy.bits .bf16 < FTy.bits .f32) (k : Fin 1024) (d : Fin 32) :
    matmul (F := Ideal) dot_S1024x64_S64x32_S1024x32_1_0_0_1_n_n none (truncf .bf16 (shapeCast S1024x64 v6 h1) h2) (truncf .bf16 v11 h2)
      (constant S1024x32 .f32 0x00000000#32) (ix2 k d) = mm (slab v6 0) (c2 v11) k d := by
  refine (dot_S1024x64_S64x32_S1024x32_1_0_0_1_n_n_apply _ _ k d).trans ?_
  refine Finset.sum_congr rfl fun t _ => ?_
  exact congrArg (· * v11 (ix2 t d)) (shapeCast_1ab_ab_apply v6 _ k t)

/-- The scores of key row `k`: its key row against each query row. -/
theorem A_of (kk : FVec Ideal S1024x24 .f32) (v17 : FVec Ideal S2048x24 .bf16) (k : Fin 1024) (Kf : Fin 24 → EReal)
    (hK : ∀ d, kk (ix2 k d) = Kf d) (h2 : FTy.bits .bf16 < FTy.bits .f32) (q : Fin 2048) :
    matmul (F := Ideal) dot_S1024x24_S2048x24_S1024x2048_1_1_0_0_n_n none (truncf .bf16 kk h2) v17 (constant S1024x2048 .f32 0x00000000#32) (ix2 k q)
      = ∑ d : Fin 24, Kf d * c2 v17 q d := by
  refine (dot_S1024x24_S2048x24_S1024x2048_1_1_0_0_n_n_apply _ _ k q).trans ?_
  refine Finset.sum_congr rfl fun d _ => ?_
  exact congrArg (· * v17 (ix2 q d)) (hK d)

/-- The weights of key row `k`: the exponential of its scores less their maximum. -/
theorem P_of (a : FVec Ideal S1024x2048 .f32) (k : Fin 1024) (A : Fin 2048 → EReal) (hA : ∀ q, a (ix2 k q) = A q)
    (hr : S1024x2048.Reduces [1] S1024) (hφ : FKind.Formats .f32)
    (hacc : (0xFF800000#32 : BitVec (FTy.bits .f32)) = FKind.maximumf.neutral .f32 hφ)
    (hc : S1024.ShapeCasts S1024x1) (hb : S1024x1.Broadcasts S1024x2048) (q : Fin 2048) :
    exp (subf a (broadcastTo S1024x2048 (shapeCast S1024x1 (multiReduction .maximumf [1] S1024 a 0xFF800000#32 hr hφ hacc) hc) hb)) (ix2 k q)
      = Ideal.exp (A q - (Finset.univ : Finset (Fin 2048)).fold max ⊥ A) := by
  show Ideal.exp (a (ix2 k q) - broadcastTo S1024x2048 _ hb (ix2 k q)) = _
  rw [broadcastTo_a1_ab_apply, shapeCast_a_a1_apply, rowMax_apply]
  simp only [hA]

/-- The value row of key `k` scaled by the reciprocal of its normaliser, carried through the output weights. -/
theorem VH_of (vv : FVec Ideal S1024x32 .f32) (p : FVec Ideal S1024x2048 .f32) (v13 : FVec Ideal S32x64 .f32) (k : Fin 1024)
    (Vf : Fin 32 → EReal) (Pf : Fin 2048 → EReal) (hV : ∀ d, vv (ix2 k d) = Vf d) (hP : ∀ q, p (ix2 k q) = Pf q)
    (hr : S1024x2048.Reduces [1] S1024) (hφ : FKind.Formats .f32)
    (hacc : (0x00000000#32 : BitVec (FTy.bits .f32)) = FKind.add.neutral .f32 hφ)
    (hc : S1024.ShapeCasts S1024x1) (hb : S1024x1.Broadcasts S1024x32) (h2 : FTy.bits .bf16 < FTy.bits .f32) (f : Fin 64) :
    matmul dot_S1024x32_S32x64_S1024x64_1_0_0_1_n_n none
        (truncf .bf16 (mulf vv (broadcastTo S1024x32 (divf (broadcast S1024x1 (Scalar.ofBits (F := Ideal) .f32 0x3F800000#32))
          (shapeCast S1024x1 (multiReduction .add [1] S1024 p 0x00000000#32 hr hφ hacc) hc)) hb)) h2)
        (truncf .bf16 v13 h2) (constant S1024x64 .f32 0x00000000#32) (ix2 k f)
      = ∑ d : Fin 32, (Vf d * Ideal.div 1 (∑ q : Fin 2048, Pf q)) * c2 v13 d f := by
  refine (dot_S1024x32_S32x64_S1024x64_1_0_0_1_n_n_apply _ _ k f).trans ?_
  refine Finset.sum_congr rfl fun d _ => ?_
  refine congrArg (· * v13 (ix2 d f)) ?_
  show vv (ix2 k d) * broadcastTo S1024x32 _ hb (ix2 k d) = _
  rw [broadcastTo_a1_ab_apply, hV]
  refine congrArg (Vf d * ·) ?_
  show Ideal.div (Ideal.ofBits .f32 0x3F800000#32) (shapeCast S1024x1 _ hc (ix2 k (0 : Fin 1))) = _
  rw [ofBits_one_f32, shapeCast_a_a1_apply, rowSum_apply]
  simp only [hP]

/-- The query projection the first step of a batch stores: `x·Wq`. -/
theorem pay3_apply (v44 : Vec Ideal S1x2048x64 .f32) (v47 : Vec Ideal S64x24 .f32) (s : Fin 2048) (d : Fin 24) :
    k0_pay3 (F := Ideal) v44 v47 (ix2 s d) = mm (slab v44 0) (c2 v47) s d := by
  unfold k0_pay3
  refine (congrFun (shapeCast_self _ _) (ix2 s d)).trans ?_
  refine (dot_S2048x64_S64x24_S2048x24_1_0_0_1_n_n_apply _ _ s d).trans ?_
  refine Finset.sum_congr rfl fun t _ => ?_
  exact congrArg (· * v47 (ix2 t d)) (shapeCast_1ab_ab_apply v44 _ s t)

/-- One half's contribution: the walk over its 1024 key rows. -/
theorem pay5_apply (v6 : Vec Ideal S1x1024x64 .f32) (v9 : Vec Ideal S64x24 .f32) (v11 : Vec Ideal S64x32 .f32)
    (v13 : Vec Ideal S32x64 .f32) (v17 : Vec Ideal S2048x24 .bf16) (q : Fin 2048) (f : Fin 64) :
    k0_pay5 (F := Ideal) v6 v9 v11 v13 v17 (ix2 q f) = tileOut (slab v6 0) (c2 v9) (c2 v11) (c2 v13) (c2 v17) q f := by
  unfold k0_pay5
  refine (dot_S1024x2048_S1024x64_S2048x64_0_0_1_1_n_n_apply _ _ q f).trans ?_
  show _ = ∑ k : Fin 1024, tP (slab v6 0) (c2 v9) (c2 v17) k q * tVH (slab v6 0) (c2 v9) (c2 v11) (c2 v13) (c2 v17) k f
  refine Finset.sum_congr rfl fun k _ => ?_
  refine congrArg₂ (· * ·) ?_ ?_
  · refine (ValueIdx.truncf_apply (φ := .f32) (ψ := .bf16) _ _ _).trans ?_
    refine P_of _ k (tA (slab v6 0) (c2 v9) (c2 v17) k) (fun q' => ?_) _ _ _ _ _ q
    refine A_of _ v17 k (mm (slab v6 0) (c2 v9) k) (fun d => ?_) _ q'
    exact K_at v6 v9 _ _ k d
  · refine (ValueIdx.truncf_apply (φ := .f32) (ψ := .bf16) _ _ _).trans ?_
    refine VH_of _ _ v13 k (mm (slab v6 0) (c2 v11) k) (tP (slab v6 0) (c2 v9) (c2 v17) k) (fun d => ?_) (fun q' => ?_)
      _ _ _ _ _ _ f
    · exact V_at v6 v11 _ _ k d
    · refine P_of _ k (tA (slab v6 0) (c2 v9) (c2 v17) k) (fun q'' => ?_) _ _ _ _ _ q'
      refine A_of _ v17 k (mm (slab v6 0) (c2 v9) k) (fun d => ?_) _ q''
      exact K_at v6 v9 _ _ k d

/-- The accumulator update adds the contribution to what the accumulator held. -/
theorem pay1_apply (v35 : FVec Ideal S2048x64 .f32) (v36 : Vec Ideal S2048x64 .f32) (j : S2048x64.Idx) :
    k0_pay1 (F := Ideal) v35 v36 j = v36 j + v35 j := by
  unfold k0_pay1
  exact congrFun (shapeCast_self (addf v36 v35) _) j

/-- The output block is the accumulator with a leading unit axis. -/
theorem pay2_apply (v44 : Vec Ideal S2048x64 .f32) (q : Fin 2048) (f : Fin 64) :
    k0_pay2 (F := Ideal) v44 (ix3 (0 : Fin 1) q f) = v44 (ix2 q f) := by
  unfold k0_pay2
  exact shapeCast_ab_1ab_apply v44 _ 0 q f

/-- The accumulator is reset to zero. -/
theorem pay4_apply (j : S2048x64.Idx) : (k0_pay4 (F := Ideal)) j = 0 := by
  unfold k0_pay4
  refine (congrFun (shapeCast_self _ _) j).trans ?_
  exact Ideal.ofBits_zero_f32

end Cert.KernelIdeal.Pay

end
-- ==== Proof.KernelValue.lean ====
/-
  The kernel's result array, entry by entry: grid point `2b + 1` writes back batch element `b`'s block, which holds
  the two halves' contributions added onto zero.
-/
import proofs.«430476_j29454885716713_3_alg».proof.Proof.Pieces
import proofs.«430476_j29454885716713_3_alg».proof.Proof.Gen.KernelIdeal.Value
import proofs.«430476_j29454885716713_3_alg».proof.Proof.AttnSpec
import proofs.«430476_j29454885716713_3_alg».proof.Proof.KernelPay
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Pieces Idealize.ShloMosaic Idealize.ShloMosaic.TcCoe
open Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The printed index maps and the tile offset, decided over the 64 grid points -/

/-- Point `t` stages batch element `t / 2` of the input and of the output, whole. -/
theorem idx_x : ∀ t : Fin cfg0.N, win0_0.index t (0 : Fin 3) = t.val / 2 ∧ win0_0.index t (1 : Fin 3) = 0 ∧ win0_0.index t (2 : Fin 3) = 0 :=
  (by decide +kernel : ∀ t : Fin grid0.N, _)
theorem idx_o : ∀ t : Fin cfg0.N, win0_5.index t (0 : Fin 3) = t.val / 2 ∧ win0_5.index t (1 : Fin 3) = 0 ∧ win0_5.index t (2 : Fin 3) = 0 :=
  (by decide +kernel : ∀ t : Fin grid0.N, _)
/-- The four weight windows are their whole arrays at every point. -/
theorem idx_w : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)
/-- The half walked at point `t` starts at row `1024 · (t mod 2)`. -/
theorem off_t : ∀ t : Fin cfg0.N, k0_off1 (grid0.coords t) (0 : Fin 3) = 0 ∧ k0_off1 (grid0.coords t) (1 : Fin 3) = 1024 * (t.val % 2)
    ∧ k0_off1 (grid0.coords t) (2 : Fin 3) = 0 :=
  (by decide +kernel : ∀ t : Fin grid0.N, _)

/-! ## The blocks the body reads, at an entry -/

/-- The input block at point `t` is batch element `t / 2` of `x`. -/
theorem xblk_apply (c : Dev nD) (t : Fin cfg0.N) (b : Fin 32) (hb : b.val = t.val / 2) (s : Fin 2048) (f : Fin 64) :
    (iblk m c 0 t : Vec F S1x2048x64 .f32) (ix3 (0 : Fin 1) s f) = m ((c : Thread nD τ).loc main_arg0) (ix3 b s f) := by
  obtain ⟨e0, e1, e2⟩ := idx_x t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 64 + 1 * f.val = f.val; omega

/-- The rows a half walks, at an entry: row `k` of the half at point `t` is row `1024 · (t mod 2) + k` of the block. -/
theorem xtile_apply (t : Fin cfg0.N) (X : Vec F S1x2048x64 .f32) (k : Fin 1024) (f : Fin 64) (r : Fin 2048)
    (hr : r.val = 1024 * (t.val % 2) + k.val) :
    xtile (grid0.coords t) X (ix3 (0 : Fin 1) k f) = X (ix3 (0 : Fin 1) r f) := by
  obtain ⟨o0, o1, o2⟩ := off_t t
  unfold xtile
  show X _ = X _
  congr 1
  funext a
  apply Fin.ext
  match a with
  | ⟨0, _⟩ => show k0_off1 (grid0.coords t) (0 : Fin 3) + 1 * 0 = 0; omega
  | ⟨1, _⟩ => show k0_off1 (grid0.coords t) (1 : Fin 3) + 1 * k.val = r.val; omega
  | ⟨2, _⟩ => show k0_off1 (grid0.coords t) (2 : Fin 3) + 1 * f.val = f.val; omega

/-- Each weight block is its whole array. -/
theorem wblk1_apply (c : Dev nD) (t : Fin cfg0.N) (a : Fin 64) (d : Fin 24) :
    (iblk m c 1 t : Vec F S64x24 .f32) (ix2 a d) = m ((c : Thread nD τ).loc main_arg1) (ix2 a d) := by
  obtain ⟨⟨e10, e11⟩, ⟨e20, e21⟩, ⟨e30, e31⟩, ⟨e40, e41⟩⟩ := idx_w t
  unfold iblk
  rw [View.read_apply]
  show m ((c : Thread nD τ).loc main_arg1) _ = m ((c : Thread nD τ).loc main_arg1) _
  congr 1
  funext x
  apply Fin.ext
  match x with
  | ⟨0, _⟩ => show win0_1.index t (0 : Fin 2) * 64 + 1 * a.val = a.val; omega
  | ⟨1, _⟩ => show win0_1.index t (1 : Fin 2) * 24 + 1 * d.val = d.val; omega

theorem wblk2_apply (c : Dev nD) (t : Fin cfg0.N) (a : Fin 64) (d : Fin 24) :
    (iblk m c 2 t : Vec F S64x24 .f32) (ix2 a d) = m ((c : Thread nD τ).loc main_arg2) (ix2 a d) := by
  obtain ⟨⟨e10, e11⟩, ⟨e20, e21⟩, ⟨e30, e31⟩, ⟨e40, e41⟩⟩ := idx_w t
  unfold iblk
  rw [View.read_apply]
  show m ((c : Thread nD τ).loc main_arg2) _ = m ((c : Thread nD τ).loc main_arg2) _
  congr 1
  funext x
  apply Fin.ext
  match x with
  | ⟨0, _⟩ => show win0_2.index t (0 : Fin 2) * 64 + 1 * a.val = a.val; omega
  | ⟨1, _⟩ => show win0_2.index t (1 : Fin 2) * 24 + 1 * d.val = d.val; omega

theorem wblk3_apply (c : Dev nD) (t : Fin cfg0.N) (a : Fin 64) (d : Fin 32) :
    (iblk m c 3 t : Vec F S64x32 .f32) (ix2 a d) = m ((c : Thread nD τ).loc main_arg3) (ix2 a d) := by
  obtain ⟨⟨e10, e11⟩, ⟨e20, e21⟩, ⟨e30, e31⟩, ⟨e40, e41⟩⟩ := idx_w t
  unfold iblk
  rw [View.read_apply]
  show m ((c : Thread nD τ).loc main_arg3) _ = m ((c : Thread nD τ).loc main_arg3) _
  congr 1
  funext x
  apply Fin.ext
  match x with
  | ⟨0, _⟩ => show win0_3.index t (0 : Fin 2) * 64 + 1 * a.val = a.val; omega
  | ⟨1, _⟩ => show win0_3.index t (1 : Fin 2) * 32 + 1 * d.val = d.val; omega

theorem wblk4_apply (c : Dev nD) (t : Fin cfg0.N) (a : Fin 32) (d : Fin 64) :
    (iblk m c 4 t : Vec F S32x64 .f32) (ix2 a d) = m ((c : Thread nD τ).loc main_arg4) (ix2 a d) := by
  obtain ⟨⟨e10, e11⟩, ⟨e20, e21⟩, ⟨e30, e31⟩, ⟨e40, e41⟩⟩ := idx_w t
  unfold iblk
  rw [View.read_apply]
  show m ((c : Thread nD τ).loc main_arg4) _ = m ((c : Thread nD τ).loc main_arg4) _
  congr 1
  funext x
  apply Fin.ext
  match x with
  | ⟨0, _⟩ => show win0_4.index t (0 : Fin 2) * 32 + 1 * a.val = a.val; omega
  | ⟨1, _⟩ => show win0_4.index t (1 : Fin 2) * 64 + 1 * d.val = d.val; omega

/-! ## What the point before an odd point left in the two scratch buffers -/

/-- The point before `t`, as a grid point. -/
def prev (t : Fin cfg0.N) : Fin cfg0.N := ⟨t.val - 1, Nat.lt_of_le_of_lt (Nat.sub_le _ _) t.isLt⟩

theorem prev_even (t : Fin cfg0.N) (ho : t.val % 2 = 1) : (prev t).val % 2 = 0 := by
  show (t.val - 1) % 2 = 0; omega
theorem prev_not_odd (t : Fin cfg0.N) (ho : t.val % 2 = 1) : ¬(prev t).val % 2 = 1 := by
  show ¬(t.val - 1) % 2 = 1; omega
theorem prev_batch (t : Fin cfg0.N) (ho : t.val % 2 = 1) : (prev t).val / 2 = t.val / 2 := by
  show (t.val - 1) / 2 = t.val / 2; omega

/-- Before an odd point the query scratch holds the query projection of the even point's blocks. -/
theorem prev_q (c : Dev nD) (t : Fin cfg0.N) (ho : t.val % 2 = 1) :
    (outsAt0 m c (t.val - 1) (Nat.lt_of_le_of_lt (Nat.sub_le _ _) t.isLt)).2.1
      = k0_pay3 (iblk m c 0 (prev t) : Vec F S1x2048x64 .f32) (iblk m c 1 (prev t) : Vec F S64x24 .f32) := by
  have h0 := prev_even t ho
  have h1 := prev_not_odd t ho
  show (outsAt0 m c (prev t).val (prev t).isLt).2.1 = _
  rw [outsAt0_A m c (prev t) h0 h1]
  dsimp only
  exact sA0 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) scM0_0 (Memref.isWhole_whole _) scM0_1 (Memref.isWhole_whole _) ((hcond0_0 (prev t)).mpr h0) (fun h => h1 ((hcond0_1 (prev t)).mp h)) (iblk m c 0 (prev t)) (iblk m c 1 (prev t)) (iblk m c 2 (prev t)) (iblk m c 3 (prev t)) (iblk m c 4 (prev t))

/-- Before an odd point the accumulator holds zero plus the even point's (first half's) contribution. -/
theorem prev_acc (c : Dev nD) (t : Fin cfg0.N) (ho : t.val % 2 = 1) :
    (outsAt0 m c (t.val - 1) (Nat.lt_of_le_of_lt (Nat.sub_le _ _) t.isLt)).2.2
      = k0_pay1 (k0_pay5 (xtile (grid0.coords (prev t)) (iblk m c 0 (prev t) : Vec F S1x2048x64 .f32)) (iblk m c 2 (prev t) : Vec F S64x24 .f32)
          (iblk m c 3 (prev t) : Vec F S64x32 .f32) (iblk m c 4 (prev t) : Vec F S32x64 .f32)
          (k0_pay3 (iblk m c 0 (prev t) : Vec F S1x2048x64 .f32) (iblk m c 1 (prev t) : Vec F S64x24 .f32))) k0_pay4 := by
  have h0 := prev_even t ho
  have h1 := prev_not_odd t ho
  show (outsAt0 m c (prev t).val (prev t).isLt).2.2 = _
  rw [outsAt0_A m c (prev t) h0 h1]
  dsimp only
  exact sA1 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) scM0_0 (Memref.isWhole_whole _) scM0_1 (Memref.isWhole_whole _) ((hcond0_0 (prev t)).mpr h0) (fun h => h1 ((hcond0_1 (prev t)).mp h)) (iblk m c 0 (prev t)) (iblk m c 1 (prev t)) (iblk m c 2 (prev t)) (iblk m c 3 (prev t)) (iblk m c 4 (prev t))

/-! ## The result array as one function, and which point's block holds an entry -/

section Cover

/-- An index of the result array is in point `t`'s block iff each coordinate is in the block's range on its axis. -/
theorem mem_blk5 (t : Fin cfg0.N) (i : S32x2048x64.Idx) :
    i ∈ ((cfg0.win 5).blk t).view.set ↔ ∀ a : Fin 3, win0_5.index t a * S1x2048x64.size a ≤ (i a).val
      ∧ (i a).val < win0_5.index t a * S1x2048x64.size a + S1x2048x64.size a := by
  show i ∈ ((View.whole main_v0).slice (win0_5.rect t)).set ↔ _
  rw [View.set_slice_whole, Rect.mem_set_unit]
  exact Iff.rfl

/-- Every entry of the result array lies in the block some odd point writes back: batch element `b` in point `2b + 1`'s. -/
theorem covered5 (i : S32x2048x64.Idx) :
    ∃ t : Fin cfg0.N, (cfg0.win 5).flush t = true ∧ i ∈ ((cfg0.win 5).blk t).view.set := by
  have hN : cfg0.N = 64 := N_0
  have h0 : (i 0).val < 32 := (i 0).isLt
  have h1 : (i 1).val < 2048 := (i 1).isLt
  have h2 : (i 2).val < 64 := (i 2).isLt
  refine ⟨⟨2 * (i 0).val + 1, by omega⟩, (flush0_5 _).mpr (by show (2 * (i 0).val + 1) % 2 = 1; omega), ?_⟩
  rw [mem_blk5]
  obtain ⟨e0, e1, e2⟩ := idx_o (⟨2 * (i 0).val + 1, by omega⟩ : Fin cfg0.N)
  have e0' : win0_5.index (⟨2 * (i 0).val + 1, by omega⟩ : Fin cfg0.N) (0 : Fin 3) = (i 0).val := by
    rw [e0]; show (2 * (i 0).val + 1) / 2 = (i 0).val; omega
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 2048 ≤ (i 1).val ∧ (i 1).val < win0_5.index _ (1 : Fin 3) * 2048 + 2048; rw [e1]; omega
  | ⟨2, _⟩ => show win0_5.index _ (2 : Fin 3) * 64 ≤ (i 2).val ∧ (i 2).val < win0_5.index _ (2 : Fin 3) * 64 + 64; rw [e2]; omega

end Cover

/-! ## The blocks as the specification's arguments (at the extended reals) -/

section AtIdeal

open Cert.AttnSpec Cert.KernelIdeal.Pay

variable (M : (ℓ : Loc nD τ sig) → Buf (Elt Ideal) ℓ)

/-- The input block at point `t`, as rows × features, is batch element `t / 2` of `x`. -/
theorem slab_xblk (c : Dev nD) (t : Fin cfg0.N) (b : Fin 32) (hb : b.val = t.val / 2) :
    slab (iblk M c 0 t : Vec Ideal S1x2048x64 .f32) (0 : Fin 1) = slab (M ((c : Thread nD τ).loc main_arg0)) b :=
  funext fun s => funext fun f => xblk_apply M c t b hb s f

theorem c2_wblk1 (c : Dev nD) (t : Fin cfg0.N) :
    c2 (iblk M c 1 t : Vec Ideal S64x24 .f32) = c2 (M ((c : Thread nD τ).loc main_arg1)) :=
  funext fun a => funext fun d => wblk1_apply M c t a d
theorem c2_wblk2 (c : Dev nD) (t : Fin cfg0.N) :
    c2 (iblk M c 2 t : Vec Ideal S64x24 .f32) = c2 (M ((c : Thread nD τ).loc main_arg2)) :=
  funext fun a => funext fun d => wblk2_apply M c t a d
theorem c2_wblk3 (c : Dev nD) (t : Fin cfg0.N) :
    c2 (iblk M c 3 t : Vec Ideal S64x32 .f32) = c2 (M ((c : Thread nD τ).loc main_arg3)) :=
  funext fun a => funext fun d => wblk3_apply M c t a d
theorem c2_wblk4 (c : Dev nD) (t : Fin cfg0.N) :
    c2 (iblk M c 4 t : Vec Ideal S32x64 .f32) = c2 (M ((c : Thread nD τ).loc main_arg4)) :=
  funext fun a => funext fun d => wblk4_apply M c t a d

/-- At an even point the half walked is the first 1024 rows of the batch element; -/
theorem slab_xtile_even (c : Dev nD) (t : Fin cfg0.N) (b : Fin 32) (hb : b.val = t.val / 2) (he : t.val % 2 = 0) :
    slab (xtile (grid0.coords t) (iblk M c 0 t : Vec Ideal S1x2048x64 .f32)) (0 : Fin 1)
      = lo (slab (M ((c : Thread nD τ).loc main_arg0)) b) :=
  funext fun k => funext fun f => by
    show xtile (grid0.coords t) (iblk M c 0 t : Vec Ideal S1x2048x64 .f32) (ix3 (0 : Fin 1) k f) = _
    rw [xtile_apply t _ k f ⟨k.val, by omega⟩ (by show k.val = 1024 * (t.val % 2) + k.val; omega)]
    exact xblk_apply M c t b hb _ f

/-- at an odd point, the last 1024. -/
theorem slab_xtile_odd (c : Dev nD) (t : Fin cfg0.N) (b : Fin 32) (hb : b.val = t.val / 2) (ho : t.val % 2 = 1) :
    slab (xtile (grid0.coords t) (iblk M c 0 t : Vec Ideal S1x2048x64 .f32)) (0 : Fin 1)
      = hi (slab (M ((c : Thread nD τ).loc main_arg0)) b) :=
  funext fun k => funext fun f => by
    show xtile (grid0.coords t) (iblk M c 0 t : Vec Ideal S1x2048x64 .f32) (ix3 (0 : Fin 1) k f) = _
    rw [xtile_apply t _ k f ⟨1024 + k.val, by omega⟩ (by show 1024 + k.val = 1024 * (t.val % 2) + k.val; omega)]
    exact xblk_apply M c t b hb _ f

/-- The kernel's result array as one function of the argument arrays: entry `(b, q, f)` is batch element `b`'s
    two halves' contributions added onto zero. -/
def GK (c : Dev nD) : S32x2048x64.Idx → EReal := fun i =>
  kernOut (slab (M ((c : Thread nD τ).loc main_arg0)) (i 0 : Fin 32)) (c2 (M ((c : Thread nD τ).loc main_arg1)))
    (c2 (M ((c : Thread nD τ).loc main_arg2))) (c2 (M ((c : Thread nD τ).loc main_arg3)))
    (c2 (M ((c : Thread nD τ).loc main_arg4))) (i 1 : Fin 2048) (i 2 : Fin 64)

/-! ## The block an odd point writes back, entry by entry -/

/-- The query scratch an odd point reads holds the batch element's query projection. -/
theorem q_scratch (c : Dev nD) (t : Fin cfg0.N) (ho : t.val % 2 = 1) (b : Fin 32) (hb : b.val = t.val / 2) :
    c2 (k0_pay3 (iblk M c 0 (prev t) : Vec Ideal S1x2048x64 .f32) (iblk M c 1 (prev t) : Vec Ideal S64x24 .f32)) = mm (slab (M ((c : Thread nD τ).loc main_arg0)) b) (c2 (M ((c : Thread nD τ).loc main_arg1))) := by
  funext s; funext d
  show k0_pay3 (F := Ideal) _ _ (ix2 s d) = _
  rw [pay3_apply, slab_xblk M c (prev t) b (hb.trans (prev_batch t ho).symm), c2_wblk1]

/-- What the even point left in the accumulator, at an entry: zero plus the first half's contribution. -/
theorem half0 (c : Dev nD) (t : Fin cfg0.N) (ho : t.val % 2 = 1) (b : Fin 32) (hb : b.val = t.val / 2) (q : Fin 2048) (f : Fin 64) :
    (k0_pay1 (k0_pay5 (xtile (grid0.coords (prev t)) (iblk M c 0 (prev t) : Vec Ideal S1x2048x64 .f32)) (iblk M c 2 (prev t) : Vec Ideal S64x24 .f32) (iblk M c 3 (prev t) : Vec Ideal S64x32 .f32) (iblk M c 4 (prev t) : Vec Ideal S32x64 .f32)
        (k0_pay3 (iblk M c 0 (prev t) : Vec Ideal S1x2048x64 .f32) (iblk M c 1 (prev t) : Vec Ideal S64x24 .f32))) (k0_pay4 (F := Ideal))) (ix2 q f)
      = 0 + tileOut (lo (slab (M ((c : Thread nD τ).loc main_arg0)) b)) (c2 (M ((c : Thread nD τ).loc main_arg2))) (c2 (M ((c : Thread nD τ).loc main_arg3))) (c2 (M ((c : Thread nD τ).loc main_arg4))) (mm (slab (M ((c : Thread nD τ).loc main_arg0)) b) (c2 (M ((c : Thread nD τ).loc main_arg1)))) q f := by
  rw [pay1_apply, pay4_apply, pay5_apply,
    slab_xtile_even M c (prev t) b (hb.trans (prev_batch t ho).symm) (prev_even t ho),
    c2_wblk2, c2_wblk3, c2_wblk4, q_scratch M c t ho b hb]

/-- The block the odd point stores, at an entry: the two halves' contributions added onto zero. -/
theorem block_entry (c : Dev nD) (t : Fin cfg0.N) (ho : t.val % 2 = 1) (b : Fin 32) (hb : b.val = t.val / 2) (q : Fin 2048) (f : Fin 64) :
    k0_pay2 (k0_pay1 (k0_pay5 (xtile (grid0.coords t) (iblk M c 0 t : Vec Ideal S1x2048x64 .f32)) (iblk M c 2 t : Vec Ideal S64x24 .f32) (iblk M c 3 t : Vec Ideal S64x32 .f32) (iblk M c 4 t : Vec Ideal S32x64 .f32)
        (outsAt0 M c (t.val - 1) (Nat.lt_of_le_of_lt (Nat.sub_le _ _) t.isLt)).2.1)
        (outsAt0 M c (t.val - 1) (Nat.lt_of_le_of_lt (Nat.sub_le _ _) t.isLt)).2.2) (ix3 (0 : Fin 1) q f)
      = kernOut (slab (M ((c : Thread nD τ).loc main_arg0)) b) (c2 (M ((c : Thread nD τ).loc main_arg1))) (c2 (M ((c : Thread nD τ).loc main_arg2))) (c2 (M ((c : Thread nD τ).loc main_arg3))) (c2 (M ((c : Thread nD τ).loc main_arg4))) q f := by
  rw [pay2_apply, pay1_apply, pay5_apply, prev_acc M c t ho, half0 M c t ho b hb q f, prev_q M c t ho,
    q_scratch M c t ho b hb, slab_xtile_odd M c t b hb ho, c2_wblk2, c2_wblk3, c2_wblk4]
  rfl

/-- Entry `(0, q, f)` of point `t`'s output block sits at `(t / 2, q, f)` of the result array. -/
theorem emb5 (t : Fin cfg0.N) (b : Fin 32) (hb : b.val = t.val / 2) (q : Fin 2048) (f : Fin 64) :
    ((cfg0.win 5).blk t).view.emb (ix3 (0 : Fin 1) q f) = (ix3 b q f : S32x2048x64.Idx) := by
  obtain ⟨e0, e1, e2⟩ := idx_o t
  funext a
  apply Fin.ext
  match a with
  | ⟨0, _⟩ => show win0_5.index t (0 : Fin 3) * 1 + 1 * 0 = b.val; omega
  | ⟨1, _⟩ => show win0_5.index t (1 : Fin 3) * 2048 + 1 * q.val = q.val; omega
  | ⟨2, _⟩ => show win0_5.index t (2 : Fin 3) * 64 + 1 * f.val = f.val; omega

/-- WHAT AN ODD POINT WRITES BACK is its block of `GK`. -/
theorem flushed_eq (c : Dev nD) (t : Fin cfg0.N) (hf : (cfg0.win 5).flush t = true) :
    (dats M 0 c).flushed 5 t = ((cfg0.win 5).blk t).view.read (Elt Ideal) (GK M c) := by
  have hN : cfg0.N = 64 := N_0
  have ho : t.val % 2 = 1 := (flush0_5 t).mp hf
  have h0 : ¬t.val % 2 = 0 := by omega
  have hlt : t.val / 2 < 32 := by have := t.isLt; omega
  rw [Cert.KernelIdeal.Value.flushed5_B M c t h0 ho,
    oB5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr ho) (iblk M c 0 t) (iblk M c 1 t) (iblk M c 2 t) (iblk M c 3 t) (iblk M c 4 t)
      (outsAt0 M c (t.val - 1) (Nat.lt_of_le_of_lt (Nat.sub_le _ _) t.isLt)).2.1 (outsAt0 M c (t.val - 1) (Nat.lt_of_le_of_lt (Nat.sub_le _ _) t.isLt)).2.2]
  refine funext fun (j : S1x2048x64.Idx) => ?_
  obtain ⟨z, q, f, rfl⟩ : ∃ (z : Fin 1) (q : Fin 2048) (f : Fin 64), j = ix3 z q f := ⟨j 0, j 1, j 2, eq_ix3 j⟩
  obtain rfl : z = 0 := Subsingleton.elim _ _
  show k0_pay2 (F := Ideal) _ (ix3 (0 : Fin 1) q f) = GK M c (((cfg0.win 5).blk t).view.emb (ix3 (0 : Fin 1) q f))
  rw [emb5 t ⟨t.val / 2, hlt⟩ rfl q f, block_entry M c t ho ⟨t.val / 2, hlt⟩ rfl q f]
  rfl

/-- THE RESULT ARRAY after the run is `GK` of the argument arrays: the odd points' blocks tile it. -/
theorem final5 (c : Dev nD) : (dats M 0 c).arrAt 5 cfg0.N = GK M c :=
  (dats M 0 c).arrAt_eq_of_cover 5 (GK M c) (flushed_eq M c) covered5

/-- The run, read: the result array at `GK`, the arguments unchanged. -/
theorem run (ρ : Dev nD → PrngReg) : θ_run defs (onTc (τ := τ) (main (F := Ideal))) ⟨M, fun _ => 0, ρ⟩ fun r => ∀ c : Dev nD,
      r.2.mem ((c : Thread nD τ).loc main_v0) = GK M c
      ∧ r.2.mem ((c : Thread nD τ).loc main_arg0) = M ((c : Thread nD τ).loc main_arg0)
      ∧ r.2.mem ((c : Thread nD τ).loc main_arg1) = M ((c : Thread nD τ).loc main_arg1)
      ∧ r.2.mem ((c : Thread nD τ).loc main_arg2) = M ((c : Thread nD τ).loc main_arg2)
      ∧ r.2.mem ((c : Thread nD τ).loc main_arg3) = M ((c : Thread nD τ).loc main_arg3)
      ∧ r.2.mem ((c : Thread nD τ).loc main_arg4) = M ((c : Thread nD τ).loc main_arg4) :=
  (θ_run defs _ _).mono (fun r h c => ⟨(h c).1.trans (final5 M c), (h c).2⟩) (Cert.KernelIdeal.Value.run_blocks M ρ)

end AtIdeal

end Cert.KernelIdeal.KValue

end
-- ==== Proof.RefSpec.lean ====
/-
  The reference's result, entry by entry, is the specification's single pass over all keys.
-/
import proofs.«430476_j29454885716713_3_alg».proof.Proof.Gen.ReferenceIdeal.Read
import proofs.«430476_j29454885716713_3_alg».proof.Proof.AttnSpec
import Idealize.ShloMosaic.PureOps.Ideal.Laws
import Idealize.ShloMosaic.Lib.ValueIdx

noncomputable section

namespace Cert.RefSpec

open Cert.ReferenceIdeal Cert.ReferenceIdeal.Gen Cert.ReferenceIdeal.Read Idealize.ShloMosaic Idealize.ShloMosaic.ValueIdx Cert.AttnSpec

/-! ## The operand indices of each stage at coordinates -/

theorem lidx_v0_at (b : Fin 32) (s : Fin 2048) (d : Fin 24) (t : Fin 64) :
    lidx_main_v0 (ix3 b s d) t = ix3 b s t :=
  funext fun a => Fin.ext (by match a with | ⟨0, _⟩ => rfl | ⟨1, _⟩ => rfl | ⟨2, _⟩ => rfl)
theorem ridx_v0_at (b : Fin 32) (s : Fin 2048) (d : Fin 24) (t : Fin 64) :
    ridx_main_v0 (ix3 b s d) t = ix2 t d :=
  funext fun a => Fin.ext (by match a with | ⟨0, _⟩ => rfl | ⟨1, _⟩ => rfl)
theorem lidx_v1_at (b : Fin 32) (s : Fin 2048) (d : Fin 24) (t : Fin 64) :
    lidx_main_v1 (ix3 b s d) t = ix3 b s t :=
  funext fun a => Fin.ext (by match a with | ⟨0, _⟩ => rfl | ⟨1, _⟩ => rfl | ⟨2, _⟩ => rfl)
theorem ridx_v1_at (b : Fin 32) (s : Fin 2048) (d : Fin 24) (t : Fin 64) :
    ridx_main_v1 (ix3 b s d) t = ix2 t d :=
  funext fun a => Fin.ext (by match a with | ⟨0, _⟩ => rfl | ⟨1, _⟩ => rfl)
theorem lidx_v2_at (b : Fin 32) (s : Fin 2048) (d : Fin 32) (t : Fin 64) :
    lidx_main_v2 (ix3 b s d) t = ix3 b s t :=
  funext fun a => Fin.ext (by match a with | ⟨0, _⟩ => rfl | ⟨1, _⟩ => rfl | ⟨2, _⟩ => rfl)
theorem ridx_v2_at (b : Fin 32) (s : Fin 2048) (d : Fin 32) (t : Fin 64) :
    ridx_main_v2 (ix3 b s d) t = ix2 t d :=
  funext fun a => Fin.ext (by match a with | ⟨0, _⟩ => rfl | ⟨1, _⟩ => rfl)
theorem lidx_v3_at (b : Fin 32) (q k : Fin 2048) (d : Fin 24) :
    lidx_main_v3 (ix3 b q k) d = ix3 b q d :=
  funext fun a => Fin.ext (by match a with | ⟨0, _⟩ => rfl | ⟨1, _⟩ => rfl | ⟨2, _⟩ => rfl)
theorem ridx_v3_at (b : Fin 32) (q k : Fin 2048) (d : Fin 24) :
    ridx_main_v3 (ix3 b q k) d = ix3 b k d :=
  funext fun a => Fin.ext (by match a with | ⟨0, _⟩ => rfl | ⟨1, _⟩ => rfl | ⟨2, _⟩ => rfl)
theorem idx_v78_at (b : Fin 32) (q k : Fin 2048) :
    idx_main_v7 (idx_main_v8 (ix3 b q k)) = ix2 b k :=
  funext fun a => Fin.ext (by match a with | ⟨0, _⟩ => rfl | ⟨1, _⟩ => rfl)
theorem idx_v11_at (b : Fin 32) (k q : Fin 2048) :
    idx_main_v11 (ix2 b k) q = ix3 b q k :=
  funext fun a => Fin.ext (by match a with | ⟨0, _⟩ => rfl | ⟨1, _⟩ => rfl | ⟨2, _⟩ => rfl)
theorem idx_v1213_at (b : Fin 32) (q k : Fin 2048) :
    idx_main_v12 (idx_main_v13 (ix3 b q k)) = ix2 b k :=
  funext fun a => Fin.ext (by match a with | ⟨0, _⟩ => rfl | ⟨1, _⟩ => rfl)
theorem lidx_v15_at (b : Fin 32) (q : Fin 2048) (d : Fin 32) (k : Fin 2048) :
    lidx_main_v15 (ix3 b q d) k = ix3 b q k :=
  funext fun a => Fin.ext (by match a with | ⟨0, _⟩ => rfl | ⟨1, _⟩ => rfl | ⟨2, _⟩ => rfl)
theorem ridx_v15_at (b : Fin 32) (q : Fin 2048) (d : Fin 32) (k : Fin 2048) :
    ridx_main_v15 (ix3 b q d) k = ix3 b k d :=
  funext fun a => Fin.ext (by match a with | ⟨0, _⟩ => rfl | ⟨1, _⟩ => rfl | ⟨2, _⟩ => rfl)
theorem lidx_v16_at (b : Fin 32) (q : Fin 2048) (f : Fin 64) (d : Fin 32) :
    lidx_main_v16 (ix3 b q f) d = ix3 b q d :=
  funext fun a => Fin.ext (by match a with | ⟨0, _⟩ => rfl | ⟨1, _⟩ => rfl | ⟨2, _⟩ => rfl)
theorem ridx_v16_at (b : Fin 32) (q : Fin 2048) (f : Fin 64) (d : Fin 32) :
    ridx_main_v16 (ix3 b q f) d = ix2 d f :=
  funext fun a => Fin.ext (by match a with | ⟨0, _⟩ => rfl | ⟨1, _⟩ => rfl)

/-- The f32 pattern of minus infinity is the bottom element. -/
theorem ofBits_neg_inf_f32 : Ideal.ofBits .f32 0xFF800000#32 = ⊥ := by simp [Ideal.ofBits, Ideal.ieee]

/-! ## The stages at coordinates -/

section Stages

variable (x0 : (⟨S32x2048x64, .f32⟩ : BufTy).Contents (Elt Ideal)) (x1 x2 : (⟨S64x24, .f32⟩ : BufTy).Contents (Elt Ideal))
  (x3 : (⟨S64x32, .f32⟩ : BufTy).Contents (Elt Ideal)) (x4 : (⟨S32x64, .f32⟩ : BufTy).Contents (Elt Ideal))

/-- The queries: the batch element's rows times `Wq`. -/
theorem v0_at (b : Fin 32) (s : Fin 2048) (d : Fin 24) :
    val_main_v0 (F := Ideal) x0 x1 (ix3 b s d) = mm (slab x0 b) (c2 x1) s d := by
  rw [val_main_v0_apply]
  refine Finset.sum_congr rfl fun t _ => ?_
  rw [lidx_v0_at, ridx_v0_at]
  rfl

/-- The keys: the rows times `Wk`. -/
theorem v1_at (b : Fin 32) (s : Fin 2048) (d : Fin 24) :
    val_main_v1 (F := Ideal) x0 x2 (ix3 b s d) = mm (slab x0 b) (c2 x2) s d := by
  rw [val_main_v1_apply]
  refine Finset.sum_congr rfl fun t _ => ?_
  rw [lidx_v1_at, ridx_v1_at]
  rfl

/-- The values: the rows times `Wv`. -/
theorem v2_at (b : Fin 32) (s : Fin 2048) (d : Fin 32) :
    val_main_v2 (F := Ideal) x0 x3 (ix3 b s d) = mm (slab x0 b) (c2 x3) s d := by
  rw [val_main_v2_apply]
  refine Finset.sum_congr rfl fun t _ => ?_
  rw [lidx_v2_at, ridx_v2_at]
  rfl

/-- The score of key `k` against query `q`. -/
theorem v3_at (b : Fin 32) (q k : Fin 2048) :
    val_main_v3 (F := Ideal) x0 x1 x2 (ix3 b q k)
      = tA (slab x0 b) (c2 x2) (mm (slab x0 b) (c2 x1)) k q := by
  rw [val_main_v3_apply]
  refine Finset.sum_congr rfl fun d _ => ?_
  rw [lidx_v3_at, ridx_v3_at, v0_at, v1_at, mul_comm]

/-- A key's largest score over the queries. -/
theorem v4_at (b : Fin 32) (k : Fin 2048) :
    val_main_v4 (F := Ideal) x0 x1 x2 (ix2 b k)
      = tM (slab x0 b) (c2 x2) (mm (slab x0 b) (c2 x1)) k := by
  have h : Shape.Reduces S32x2048x2048 [1] S32x2048 := by decide
  unfold val_main_v4
  rw [Host.reduce_eq_fold_single (FloatOps.maximumf (F := Ideal) (φ := .f32)) _ _ reducesTo_S32x2048x2048_S32x2048_d1 h h_S_
    (ix2 b k), val_main_cst_apply, Ideal.ofBits_def, ofBits_neg_inf_f32]
  unfold tM
  refine Finset.fold_congr fun (q : Fin 2048) _ => ?_
  have e : h.lift (ix2 b k) q = ix3 b q k :=
    funext fun a => Fin.ext (by match a with | ⟨0, _⟩ => rfl | ⟨1, _⟩ => rfl | ⟨2, _⟩ => rfl)
  show val_main_v3 (F := Ideal) x0 x1 x2 (h.lift (ix2 b k) q) = _
  rw [e, v3_at]

theorem v6_at (b : Fin 32) (k : Fin 2048) :
    val_main_v6 (F := Ideal) x0 x1 x2 (ix2 b k)
      = tM (slab x0 b) (c2 x2) (mm (slab x0 b) (c2 x1)) k := by
  rw [val_main_v6_apply, val_main_v5_apply, val_main_cst_0_apply, v4_at, Ideal.ofBits_def, ofBits_neg_inf_f32,
    Ideal.maximumf_def]
  exact max_bot_left _

theorem v8_at (b : Fin 32) (q k : Fin 2048) :
    val_main_v8 (F := Ideal) x0 x1 x2 (ix3 b q k)
      = tM (slab x0 b) (c2 x2) (mm (slab x0 b) (c2 x1)) k := by
  rw [val_main_v8_apply, val_main_v7_apply, idx_v78_at, v6_at]

/-- The unnormalised weight of query `q` under key `k`. -/
theorem v10_at (b : Fin 32) (q k : Fin 2048) :
    val_main_v10 (F := Ideal) x0 x1 x2 (ix3 b q k)
      = tP (slab x0 b) (c2 x2) (mm (slab x0 b) (c2 x1)) k q := by
  rw [val_main_v10_apply, val_main_v9_apply, v3_at, v8_at]
  rfl

/-- A key's normaliser. -/
theorem v11_at (b : Fin 32) (k : Fin 2048) :
    val_main_v11 (F := Ideal) x0 x1 x2 (ix2 b k)
      = tL (slab x0 b) (c2 x2) (mm (slab x0 b) (c2 x1)) k := by
  rw [val_main_v11_apply, val_main_cst_1_apply, Ideal.ofBits_def, Ideal.ofBits_zero_f32, zero_add]
  refine Finset.sum_congr rfl fun q _ => ?_
  rw [idx_v11_at, v10_at]

theorem v13_at (b : Fin 32) (q k : Fin 2048) :
    val_main_v13 (F := Ideal) x0 x1 x2 (ix3 b q k)
      = tL (slab x0 b) (c2 x2) (mm (slab x0 b) (c2 x1)) k := by
  rw [val_main_v13_apply, val_main_v12_apply, idx_v1213_at, v11_at]

/-- The normalised weight. -/
theorem v14_at (b : Fin 32) (q k : Fin 2048) :
    val_main_v14 (F := Ideal) x0 x1 x2 (ix3 b q k)
      = Ideal.div (tP (slab x0 b) (c2 x2) (mm (slab x0 b) (c2 x1)) k q)
          (tL (slab x0 b) (c2 x2) (mm (slab x0 b) (c2 x1)) k) := by
  rw [val_main_v14_apply, v10_at, v13_at]
  rfl

/-- The weighted values. -/
theorem v15_at (b : Fin 32) (q : Fin 2048) (d : Fin 32) :
    val_main_v15 (F := Ideal) x0 x1 x2 x3 (ix3 b q d)
      = ∑ k : Fin 2048, Ideal.div (tP (slab x0 b) (c2 x2) (mm (slab x0 b) (c2 x1)) k q)
          (tL (slab x0 b) (c2 x2) (mm (slab x0 b) (c2 x1)) k) * mm (slab x0 b) (c2 x3) k d := by
  rw [val_main_v15_apply]
  refine Finset.sum_congr rfl fun k _ => ?_
  rw [lidx_v15_at, ridx_v15_at, v14_at, v2_at]

end Stages

theorem ref_apply (x0 : (⟨S32x2048x64, .f32⟩ : BufTy).Contents (Elt Ideal)) (x1 x2 : (⟨S64x24, .f32⟩ : BufTy).Contents (Elt Ideal))
    (x3 : (⟨S64x32, .f32⟩ : BufTy).Contents (Elt Ideal)) (x4 : (⟨S32x64, .f32⟩ : BufTy).Contents (Elt Ideal))
    (b : Fin 32) (q : Fin 2048) (f : Fin 64) :
    val_main_v16 (F := Ideal) x0 x1 x2 x3 x4 (ix3 b q f) = refOut (slab x0 b) (c2 x1) (c2 x2) (c2 x3) (c2 x4) q f := by
  rw [val_main_v16_apply]
  refine Finset.sum_congr rfl fun d _ => ?_
  rw [lidx_v16_at, ridx_v16_at, v15_at]
  rfl

end Cert.RefSpec

end
-- ==== Proof.AttnAlgebra.lean ====
/-
  Over finite arguments the kernel's two-half accumulation and the reference's single pass are the same number.
-/
import proofs.«430476_j29454885716713_3_alg».proof.Proof.AttnSpec
import Mathlib.Data.EReal.Operations
import Mathlib.Algebra.BigOperators.Fin
import Mathlib.Analysis.SpecialFunctions.Exp

noncomputable section

namespace Cert.AttnSpec

open Idealize.ShloMosaic

/-- A finite sum of real numbers, read in the extended reals, is the real sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The largest of finitely many (at least one) real numbers, taken from the bottom element, is one of them. -/
theorem fold_max_coe {ι : Type*} [Fintype ι] [Nonempty ι] (g : ι → ℝ) :
    ∃ m : ℝ, (Finset.univ : Finset ι).fold max ⊥ (fun q => (g q : EReal)) = (m : EReal) := by
  have h : (Finset.univ : Finset ι).fold max ⊥ (fun q => (g q : EReal))
      = Finset.univ.sup (fun q => (g q : EReal)) := rfl
  obtain ⟨q, -, hq⟩ := Finset.exists_mem_eq_sup Finset.univ Finset.univ_nonempty (fun q => (g q : EReal))
  exact ⟨g q, h.trans hq⟩

/-- A sum over 2048 indices is the sum over the first 1024 plus the sum over the last 1024. -/
theorem sum_halves {M : Type*} [AddCommMonoid M] (g : Fin 2048 → M) :
    ∑ k : Fin 2048, g k
      = ∑ k : Fin 1024, g ⟨k.val, by omega⟩ + ∑ k : Fin 1024, g ⟨1024 + k.val, by omega⟩ :=
  Fin.sum_univ_add (a := 1024) (b := 1024) g

/-- A product of real matrices, read in the extended reals, is the real product. -/
theorem mm_coe {n k p : Nat} (a : Fin n → Fin k → EReal) (b : Fin k → Fin p → EReal)
    (ar : Fin n → Fin k → ℝ) (br : Fin k → Fin p → ℝ)
    (ha : ∀ i t, a i t = (ar i t : EReal)) (hb : ∀ t j, b t j = (br t j : EReal)) (i : Fin n) (j : Fin p) :
    mm a b i j = ((∑ t, ar i t * br t j : ℝ) : EReal) := by
  simp only [mm, ha, hb, ← EReal.coe_mul, coe_sum]

/-- Over real arguments a key's weights are real and its normaliser is a nonzero real. -/
theorem row_stats {n : Nat} (xt : Fin n → Fin 64 → EReal) (wk : Fin 64 → Fin 24 → EReal)
    (qs : Fin 2048 → Fin 24 → EReal) (xtr : Fin n → Fin 64 → ℝ) (wkr : Fin 64 → Fin 24 → ℝ)
    (qsr : Fin 2048 → Fin 24 → ℝ) (hxt : ∀ k f, xt k f = (xtr k f : EReal))
    (hwk : ∀ f d, wk f d = (wkr f d : EReal)) (hqs : ∀ q d, qs q d = (qsr q d : EReal)) (k : Fin n) :
    ∃ (p : Fin 2048 → ℝ) (l : ℝ), l ≠ 0 ∧ (∀ q, tP xt wk qs k q = (p q : EReal))
      ∧ tL xt wk qs k = (l : EReal) := by
  have hA : ∀ q, tA xt wk qs k q = ((∑ d, (∑ t, xtr k t * wkr t d) * qsr q d : ℝ) : EReal) := by
    intro q
    simp only [tA, mm_coe xt wk xtr wkr hxt hwk, hqs, ← EReal.coe_mul, coe_sum]
  obtain ⟨m, hm⟩ : ∃ m : ℝ, tM xt wk qs k = (m : EReal) := by
    unfold tM
    simp only [hA]
    exact fold_max_coe _
  have hP : ∀ q, tP xt wk qs k q
      = ((Real.exp ((∑ d, (∑ t, xtr k t * wkr t d) * qsr q d) - m) : ℝ) : EReal) := by
    intro q
    unfold tP
    rw [hA, hm, ← EReal.coe_sub, Ideal.exp_coe]
  refine ⟨fun q => Real.exp ((∑ d, (∑ t, xtr k t * wkr t d) * qsr q d) - m),
    ∑ q, Real.exp ((∑ d, (∑ t, xtr k t * wkr t d) * qsr q d) - m), ?_, hP, ?_⟩
  · exact (Finset.sum_pos (fun q _ => Real.exp_pos _) Finset.univ_nonempty).ne'
  · unfold tL
    simp only [hP, coe_sum]

/-- Over real numbers, weighting each key's scaled and projected value row equals projecting the
    normalised weighted sum of the value rows. -/
theorem tile_eq_ref_core {n : Nat} (p l : Fin n → ℝ) (v : Fin n → Fin 32 → ℝ) (w : Fin 32 → ℝ)
    (hl : ∀ k, l k ≠ 0) :
    ∑ k : Fin n, (p k : EReal) * ∑ d : Fin 32, ((v k d : EReal) * Ideal.div 1 (l k : EReal)) * (w d : EReal)
      = ∑ d : Fin 32, (∑ k : Fin n, Ideal.div (p k : EReal) (l k : EReal) * (v k d : EReal)) * (w d : EReal) := by
  have hd : ∀ (k : Fin n) (x : EReal), Ideal.div x (l k : EReal) = x * ((1 / l k : ℝ) : EReal) :=
    fun k x => Ideal.div_coe (hl k) x
  simp only [hd, one_mul, ← EReal.coe_mul, coe_sum]
  congr 1
  simp only [Finset.mul_sum, Finset.sum_mul]
  rw [Finset.sum_comm]
  refine Finset.sum_congr rfl fun d _ => Finset.sum_congr rfl fun k _ => ?_
  ring

theorem kernOut_eq_refOut (xa : Fin 2048 → Fin 64 → EReal) (wq wk : Fin 64 → Fin 24 → EReal)
    (wv : Fin 64 → Fin 32 → EReal) (wh : Fin 32 → Fin 64 → EReal)
    (hx : ∀ s f, ∃ r : ℝ, xa s f = (r : EReal)) (hq : ∀ f d, ∃ r : ℝ, wq f d = (r : EReal))
    (hk : ∀ f d, ∃ r : ℝ, wk f d = (r : EReal)) (hv : ∀ f d, ∃ r : ℝ, wv f d = (r : EReal))
    (hh : ∀ d f, ∃ r : ℝ, wh d f = (r : EReal)) (q : Fin 2048) (f : Fin 64) :
    kernOut xa wq wk wv wh q f = refOut xa wq wk wv wh q f := by
  choose xr hxr using hx
  choose qr hqr using hq
  choose kr hkr using hk
  choose vr hvr using hv
  choose hr hhr using hh
  -- A key's statistics involve its own row only, so the two halves together walk every key once.
  have h1 : kernOut xa wq wk wv wh q f = tileOut xa wk wv wh (mm xa wq) q f := by
    unfold kernOut
    rw [zero_add]
    exact (sum_halves (fun k => tP xa wk (mm xa wq) k q * tVH xa wk wv wh (mm xa wq) k f)).symm
  rw [h1]
  have hqs : ∀ q d, mm xa wq q d = ((∑ t, xr q t * qr t d : ℝ) : EReal) := mm_coe xa wq xr qr hxr hqr
  have hV : ∀ k d, mm xa wv k d = ((∑ t, xr k t * vr t d : ℝ) : EReal) := mm_coe xa wv xr vr hxr hvr
  choose p l hl hp hL using row_stats xa wk (mm xa wq) xr kr _ hxr hkr hqs
  unfold tileOut refOut tVH
  simp only [hp, hL, hV, hhr]
  exact tile_eq_ref_core (fun k => p k q) l _ (fun d => hr d f) hl

end Cert.AttnSpec

end
-- ==== Proof.Finite.lean ====
/-
  Under the precondition every entry of every argument is a real number.
-/
import proofs.«430476_j29454885716713_3_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The pattern `0x7F800000` (sign 0, exponent all ones, fraction 0) denotes `+∞`. -/
theorem ofBits_inf : (FloatOps.ofBits (F := Ideal) .f32 0x7F800000#32 : EReal) = ⊤ := by
  show Ideal.ofBits .f32 0x7F800000#32 = ⊤
  simp [Ideal.ofBits, Ideal.ieee]

/-- An extended real whose absolute value `max x (-x)` compares strictly below `+∞` is a real:
    `⊤` has `max ⊤ ⊥ = ⊤` and `⊥` has `max ⊥ ⊤ = ⊤`, neither below `⊤`. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  rw [ofBits_inf] at h
  have h' : max x (-x) < (⊤ : EReal) := by
    by_contra hc
    have : FloatOps.cmpf .olt (FloatOps.hostAbsf x) (⊤ : Ideal .f32) = 0#1 := by
      show Ideal.cmp .olt (max x (-x)) ⊤ = 0#1
      simp [Ideal.cmp, hc]
    rw [this] at h
    exact absurd h (by decide)
  induction x using EReal.rec with
  | bot => simp at h'
  | coe r => exact ⟨r, rfl⟩
  | top => simp at h'

/-- One argument, any shape: if the conjunction over all entries of `|a i| < +∞` is true, every entry is a real. -/
theorem real_of_all_lt_inf {s : Shape} {axes : List (Fin s.rank)}
    (hb : S_.BroadcastsInDim s (![] : Fin 0 → Fin s.rank)) (hr : s.ReducesTo axes S_) (hu : 0 < S_.numel)
    (a : FVec Ideal s .f32) (init : IVec S_ 1) (j : S_.Idx)
    (h : Host.reduce IntOp.andi
          (cmpf .olt (Host.absf a) (broadcastInDim s ![] hb (constant (F := Ideal) S_ .f32 0x7F800000#32))) init hr hu j
        = 1#1) :
    ∀ i, ∃ r : ℝ, a i = (r : EReal) := by
  intro i
  -- the rank-0 result has exactly one index
  haveI : Subsingleton S_.Idx := ⟨fun a b => funext fun d => d.elim0⟩
  exact real_of_abs_lt_inf (a i) (Host.reduce_andi_all _ init hr hu j h i)

theorem real_of_pre [Cert.Pre_finite_inputs.Facts] (a0 : FVec Ideal S32x2048x64 .f32) (a1 a2 : FVec Ideal S64x24 .f32)
    (a3 : FVec Ideal S64x32 .f32) (a4 : FVec Ideal S32x64 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- the predicate's value at its one index: (((c0 ∧ c1) ∧ c2) ∧ c3) ∧ c4, each ck the conjunction over an argument
  have h0 := congrFun h ValueIdx.ix0
  dsimp only [fn, fn_part1] at h0
  obtain ⟨h0123, c4⟩ := IntOp.andi_eq_one.1 h0
  obtain ⟨h012, c3⟩ := IntOp.andi_eq_one.1 h0123
  obtain ⟨h01, c2⟩ := IntOp.andi_eq_one.1 h012
  obtain ⟨c0, c1⟩ := IntOp.andi_eq_one.1 h01
  exact ⟨real_of_all_lt_inf _ _ _ a0 _ _ c0, real_of_all_lt_inf _ _ _ a1 _ _ c1, real_of_all_lt_inf _ _ _ a2 _ _ c2,
    real_of_all_lt_inf _ _ _ a3 _ _ c3, real_of_all_lt_inf _ _ _ a4 _ _ c4⟩

end Cert.Finite

end
-- ==== Proof.lean ====
/-
  Attention with the softmax taken over the QUERY axis: the kernel against its reference, over the extended reals.

  For each batch element the reference projects queries, keys and values, normalises each KEY's scores over all
  queries (the weight of query q under key k is exp (a k q - max_q a k q), divided by its sum over q), sums the
  weighted value rows over all 2048 keys and carries the result through `Wh`.  The kernel walks the keys in two
  halves of 1024 rows: the first half also stores the query projection and resets an accumulator; each half adds
  ∑ k, p k q * (∑ d, (v k d * (1 / l k)) * Wh d f) into it, and the second half writes the accumulator out.  A key's
  statistics involve its own row only, so a half's statistics are the whole array's at those rows; and over FINITE
  arguments every score, weight and normaliser is a real number with the normalisers nonzero, so that scaling the
  value row by 1 / l k before `Wh` and dividing the weight by l k are the same number (distributivity and the
  exchange of the two finite sums, which hold on the reals and not at the infinities: the precondition is used).
  Format changes are the identity at the ideal instance and a matrix product into a zero accumulator is the plain
  sum of products, so nothing else separates the two programs.
-/
import proofs.«430476_j29454885716713_3_alg».proof.Defs
import proofs.«430476_j29454885716713_3_alg».proof.Proof.Gen.Kernel
import proofs.«430476_j29454885716713_3_alg».proof.Proof.Gen.Kernel.Skeleton
import proofs.«430476_j29454885716713_3_alg».proof.Proof.Gen.Kernel.Launch
import proofs.«430476_j29454885716713_3_alg».proof.Proof.Gen.Kernel.Points
import proofs.«430476_j29454885716713_3_alg».proof.Proof.Gen.Kernel.Frame
import proofs.«430476_j29454885716713_3_alg».proof.Proof.Gen.KernelIdeal
import proofs.«430476_j29454885716713_3_alg».proof.Proof.Gen.KernelIdeal.Skeleton
import proofs.«430476_j29454885716713_3_alg».proof.Proof.Gen.KernelIdeal.Launch
import proofs.«430476_j29454885716713_3_alg».proof.Proof.Gen.KernelIdeal.Points
import proofs.«430476_j29454885716713_3_alg».proof.Proof.Gen.KernelIdeal.Frame
import proofs.«430476_j29454885716713_3_alg».proof.Proof.Gen.ReferenceIdeal
import proofs.«430476_j29454885716713_3_alg».proof.Proof.Gen.Pre_finite_inputs
import proofs.«430476_j29454885716713_3_alg».proof.Proof.Gen.KernelIdeal.Value
import proofs.«430476_j29454885716713_3_alg».proof.Proof.Gen.ReferenceIdeal.Run
import proofs.«430476_j29454885716713_3_alg».proof.Proof.Gen.ReferenceIdeal.Read
import proofs.«430476_j29454885716713_3_alg».proof.Proof.KernelValue
import proofs.«430476_j29454885716713_3_alg».proof.Proof.RefSpec
import proofs.«430476_j29454885716713_3_alg».proof.Proof.AttnAlgebra
import proofs.«430476_j29454885716713_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.AttnSpec

/-- The three programs run, fault-free, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, both programs end with the same result array: entry (b, q, f) of the
    kernel's is the two halves added onto zero, of the reference's the single pass over all keys, and over the
    finite arguments the precondition grants these are one real number. -/
theorem algebraic : Cert.algebraic_KernelIdeal_ReferenceIdeal := by
  intro m ρ m' ρ' hpre hagree
  refine ⟨fun c => Cert.KernelIdeal.KValue.GK m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1, (hagree c).2.2.2.2]
  obtain ⟨h0, h1, h2, h3, h4⟩ := Cert.Finite.real_of_pre _ _ _ _ _ (hpre c)
  funext i
  obtain ⟨b, q, f, rfl⟩ : ∃ (b : Fin 32) (q : Fin 2048) (f : Fin 64), i = ix3 b q f := ⟨i 0, i 1, i 2, eq_ix3 i⟩
  rw [Cert.RefSpec.ref_apply]
  exact (kernOut_eq_refOut _ _ _ _ _ (fun s g => h0 (ix3 b s g)) (fun a d => h1 (ix2 a d)) (fun a d => h2 (ix2 a d))
    (fun a d => h3 (ix2 a d)) (fun a d => h4 (ix2 a d)) q f).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
